-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v24_0)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v24_0) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024 : Shape := ⟨2, ![16, 1024]⟩
abbrev S8192 : Shape := ⟨1, ![8192]⟩
abbrev S3774873 : Shape := ⟨1, ![3774873]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S8192 : S_.BroadcastsInDim S8192 (![] : Fin 0 → Fin S8192.rank)
  reducesTo_S8192_S_d0 : S8192.ReducesTo [0] S_
  bcast_S_S3774873 : S_.BroadcastsInDim S3774873 (![] : Fin 0 → Fin S3774873.rank)
  reducesTo_S3774873_S_d0 : S3774873.ReducesTo [0] S_

variable [Facts]

def fn_part2 {F : FTy → Type} [FloatOps F] (main_arg7 : IVec S3774873 32) (main_v28 : IVec S_ 1) (main_v33 : IVec S3774873 1) : IVec S_ 1 :=
  let main_c_12 : IVec S_ 1 := constantI S_ 1 1#1
  let main_v34 : IVec S_ 1 := (fun x v => Host.reduce IntOp.andi x v reducesTo_S3774873_S_d0 h_S_) main_v33 main_c_12
  let main_v35 : IVec S_ 1 := andi main_v28 main_v34
  let main_c_13 : IVec S_ 32 := constantI S_ 32 0#32
  let main_v36 : IVec S3774873 32 := broadcastInDim S3774873 ![] bcast_S_S3774873 main_c_13
  let main_v37 : IVec S3774873 1 := cmpi .sge main_arg7 main_v36
  let main_c_14 : IVec S_ 32 := constantI S_ 32 9216#32
  let main_v38 : IVec S3774873 32 := broadcastInDim S3774873 ![] bcast_S_S3774873 main_c_14
  let main_v39 : IVec S3774873 1 := cmpi .slt main_arg7 main_v38
  let main_v40 : IVec S3774873 1 := andi main_v37 main_v39
  let main_c_15 : IVec S_ 1 := constantI S_ 1 1#1
  let main_v41 : IVec S_ 1 := (fun x v => Host.reduce IntOp.andi x v reducesTo_S3774873_S_d0 h_S_) main_v40 main_c_15
  let main_v42 : IVec S_ 1 := andi main_v35 main_v41
  main_v42

def fn_part1 {F : FTy → Type} [FloatOps F] (main_arg4 : FVec F S8192 .f32) (main_arg5 : FVec F S3774873 .f32) (main_arg6 : IVec S3774873 32) (main_arg7 : IVec S3774873 32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S3774873 .f32 := Host.absf main_arg5
  let main_cst_8 : FVec F S_ .f32 := constant S_ .f32 0x7F800000#32
  let main_v25 : FVec F S3774873 .f32 := broadcastInDim S3774873 ![] bcast_S_S3774873 main_cst_8
  let main_v26 : IVec S3774873 1 := cmpf .olt main_v24 main_v25
  let main_c_9 : IVec S_ 1 := constantI S_ 1 1#1
  let main_v27 : IVec S_ 1 := (fun x v => Host.reduce IntOp.andi x v reducesTo_S3774873_S_d0 h_S_) main_v26 main_c_9
  let main_v28 : IVec S_ 1 := andi main_v23 main_v27
  let main_c_10 : IVec S_ 32 := constantI S_ 32 0#32
  let main_v29 : IVec S3774873 32 := broadcastInDim S3774873 ![] bcast_S_S3774873 main_c_10
  let main_v30 : IVec S3774873 1 := cmpi .sge main_arg6 main_v29
  let main_c_11 : IVec S_ 32 := constantI S_ 32 8192#32
  let main_v31 : IVec S3774873 32 := broadcastInDim S3774873 ![] bcast_S_S3774873 main_c_11
  let main_v32 : IVec S3774873 1 := cmpi .slt main_arg6 main_v31
  let main_v33 : IVec S3774873 1 := andi main_v30 main_v32
  fn_part2 (F := F) main_arg7 main_v28 main_v33

def fn {F : FTy → Type} [FloatOps F] (main_arg0 : FVec F S16x1024 .f32) (main_arg1 : FVec F S8192 .f32) (main_arg2 : FVec F S8192 .f32) (main_arg3 : FVec F S8192 .f32) (main_arg4 : FVec F S8192 .f32) (main_arg5 : FVec F S3774873 .f32) (main_arg6 : IVec S3774873 32) (main_arg7 : IVec S3774873 32) (main_arg8 : IVec S8192 32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_v13 main_v16
-- ==== Kernel.lean ====
abbrev S16x1024 : Shape := ⟨2, ![16, 1024]⟩
abbrev S8192 : Shape := ⟨1, ![8192]⟩
abbrev S3774873 : Shape := ⟨1, ![3774873]⟩
abbrev S1x8192 : Shape := ⟨2, ![1, 8192]⟩
abbrev S16x8192 : Shape := ⟨2, ![16, 8192]⟩
abbrev S16x9216 : Shape := ⟨2, ![16, 9216]⟩
abbrev S_ : Shape := ⟨0, ![]⟩
abbrev S9216x8192 : Shape := ⟨2, ![9216, 8192]⟩
abbrev S3774873x1 : Shape := ⟨2, ![3774873, 1]⟩
abbrev S3774873x2 : Shape := ⟨2, ![3774873, 2]⟩
abbrev S16x1536 : Shape := ⟨2, ![16, 1536]⟩
abbrev S1536x2048 : Shape := ⟨2, ![1536, 2048]⟩
abbrev S1x2048 : Shape := ⟨2, ![1, 2048]⟩
abbrev S16x2048 : Shape := ⟨2, ![16, 2048]⟩
abbrev S16x256 : Shape := ⟨2, ![16, 256]⟩

abbrev nBuf : Space → Nat
  | .hbm => 46
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S3774873, .f32⟩
  | .hbm, ⟨6, _⟩ => ⟨S3774873, .i32⟩
  | .hbm, ⟨7, _⟩ => ⟨S3774873, .i32⟩
  | .hbm, ⟨8, _⟩ => ⟨S8192, .i32⟩
  | .hbm, ⟨9, _⟩ => ⟨S1x8192, .f32⟩
  | .hbm, ⟨10, _⟩ => ⟨S16x8192, .f32⟩
  | .hbm, ⟨11, _⟩ => ⟨S16x9216, .f32⟩
  | .hbm, ⟨12, _⟩ => ⟨S16x9216, .bf16⟩
  | .hbm, ⟨13, _⟩ => ⟨S_, .f32⟩
  | .hbm, ⟨14, _⟩ => ⟨S9216x8192, .f32⟩
  | .hbm, ⟨15, _⟩ => ⟨S_, .i32⟩
  | .hbm, ⟨16, _⟩ => ⟨S3774873, .i32⟩
  | .hbm, ⟨17, _⟩ => ⟨S3774873, .i1⟩
  | .hbm, ⟨18, _⟩ => ⟨S_, .i32⟩
  | .hbm, ⟨19, _⟩ => ⟨S3774873, .i32⟩
  | .hbm, ⟨20, _⟩ => ⟨S3774873, .i32⟩
  | .hbm, ⟨21, _⟩ => ⟨S3774873, .i32⟩
  | .hbm, ⟨22, _⟩ => ⟨S_, .i32⟩
  | .hbm, ⟨23, _⟩ => ⟨S3774873, .i32⟩
  | .hbm, ⟨24, _⟩ => ⟨S3774873, .i1⟩
  | .hbm, ⟨25, _⟩ => ⟨S_, .i32⟩
  | .hbm, ⟨26, _⟩ => ⟨S3774873, .i32⟩
  | .hbm, ⟨27, _⟩ => ⟨S3774873, .i32⟩
  | .hbm, ⟨28, _⟩ => ⟨S3774873, .i32⟩
  | .hbm, ⟨29, _⟩ => ⟨S3774873x1, .i32⟩
  | .hbm, ⟨30, _⟩ => ⟨S3774873x1, .i32⟩
  | .hbm, ⟨31, _⟩ => ⟨S3774873x2, .i32⟩
  | .hbm, ⟨32, _⟩ => ⟨S9216x8192, .f32⟩
  | .hbm, ⟨33, _⟩ => ⟨S9216x8192, .bf16⟩
  | .hbm, ⟨34, _⟩ => ⟨S1x8192, .f32⟩
  | .hbm, ⟨35, _⟩ => ⟨S1x8192, .f32⟩
  | .hbm, ⟨36, _⟩ => ⟨S1x8192, .f32⟩
  | .hbm, ⟨37, _⟩ => ⟨S1x8192, .i32⟩
  | .hbm, ⟨38, _⟩ => ⟨S16x8192, .f32⟩
  | .hbm, ⟨39, _⟩ => ⟨S16x8192, .f32⟩
  | .hbm, ⟨40, _⟩ => ⟨S16x256, .f32⟩
  | .hbm, ⟨41, _⟩ => ⟨S16x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S16x1536, .bf16⟩
  | .local _ .vmem, ⟨1, _⟩ => ⟨S16x1536, .bf16⟩
  | .local _ .vmem, ⟨2, _⟩ => ⟨S1536x2048, .bf16⟩
  | .local _ .vmem, ⟨3, _⟩ => ⟨S1536x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .i32⟩
  | .local _ .vmem, ⟨11, _⟩ => ⟨S1x2048, .i32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | .local _ .vmem, ⟨16, _⟩ => ⟨S16x2048, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  concatenates_S16x1024_S16x8192_S16x9216_d1 : Shape.Concatenates [S16x1024, S16x8192] S16x9216 1
  bitsLt_bf16_f32 : FTy.bits .bf16 < FTy.bits .f32
  bcast_S_S9216x8192 : S_.BroadcastsInDim S9216x8192 (![] : Fin 0 → Fin S9216x8192.rank)
  bcast_S_S3774873 : S_.BroadcastsInDim S3774873 (![] : Fin 0 → Fin S3774873.rank)
  bcast_S3774873_S3774873x1_0 : S3774873.BroadcastsInDim S3774873x1 (![0] : Fin 1 → Fin S3774873x1.rank)
  concatenates_S3774873x1_S3774873x1_S3774873x2_d1 : Shape.Concatenates [S3774873x1, S3774873x1] S3774873x2 1
  shapeCasts_S8192_S1x8192 : S8192.ShapeCasts S1x8192
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S16x1536_S16x1536_0_0 : ∀ a, (![0, 0] : Fin 2 → Nat) a + S16x1536.size a ≤ S16x1536.size a
  h_S16x1536 : 0 < S16x1536.numel
  shapeCasts_S16x1536_S16x1536 : S16x1536.ShapeCasts S16x1536
  inb_S1536x2048_S1536x2048_0_0 : ∀ a, (![0, 0] : Fin 2 → Nat) a + S1536x2048.size a ≤ S1536x2048.size a
  h_S1536x2048 : 0 < S1536x2048.numel
  shapeCasts_S1536x2048_S1536x2048 : S1536x2048.ShapeCasts S1536x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S16x2048 : S1x2048.Broadcasts S16x2048
  natLt_1_32 : 1 < 32
  slices_S16x8192_S16x256_0_7934 : S16x8192.Slices ![0, 7934] S16x256
  reducesTo_S16x8192_S_d0_1 : S16x8192.ReducesTo [0, 1] S_
  h_S_ : 0 < S_.numel
  scatter_S9216x8192_S3774873x2_S3774873_n_01_01_1_wf : ScatterDims.WF S9216x8192 S3774873x2 S3774873 [] [0, 1] [0, 1] 1
  dot_S16x1536_S1536x2048_S16x2048_1_0_0_1_n_n_wf : DotDims.WF S16x1536 S1536x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1536.size a ≤ S16x9216.size a
  hwx0_0 : ∀ i : grid0.Coords, EltTy.bits .bf16 = 32 ∨ (Rect.block (s := S16x9216) S16x1536.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x2048.size a ≤ S9216x8192.size a
  hwx0_1 : ∀ i : grid0.Coords, EltTy.bits .bf16 = 32 ∨ (Rect.block (s := S9216x8192) S1536x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .i32 = 32 ∨ (Rect.block (s := S1x8192) S1x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x2048.size a ≤ S16x8192.size a
  hwx0_6 : ∀ i : grid0.Coords, EltTy.bits .f32 = 32 ∨ (Rect.block (s := S16x8192) S16x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x2048.size a ≤ S16x8192.size a
  hwx0_7 : ∀ i : grid0.Coords, EltTy.bits .f32 = 32 ∨ (Rect.block (s := S16x8192) S16x2048.size (cc0_transform_7 i) (hinb0_7 i)).WholeWords (EltTy.packing .f32)

variable [Facts₀]

def scatter_S9216x8192_S3774873x2_S3774873_n_01_01_1 : ScatterDims S9216x8192 S3774873x2 S3774873 where
  updateWindowDims := []
  insertedWindowDims := [0, 1]
  scatterDimsToOperandDims := [0, 1]
  indexVectorDim := 1
  wf := scatter_S9216x8192_S3774873x2_S3774873_n_01_01_1_wf
def dot_S16x1536_S1536x2048_S16x2048_1_0_0_1_n_n : DotDims S16x1536 S1536x2048 S16x2048 where
  lhsContracting := [1]
  rhsContracting := [0]
  lhsNonContracting := [0]
  rhsNonContracting := [1]
  lhsBatch := []
  rhsBatch := []
  wf := dot_S16x1536_S1536x2048_S16x2048_1_0_0_1_n_n_wf

abbrev win0_0 : Pipeline.Window sig grid0 :=
  Pipeline.Window.ofSpec (Memref.whole main_v3) S16x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1536x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S16x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S16x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16x1024 : Shape := ⟨2, ![16, 1024]⟩
abbrev S8192 : Shape := ⟨1, ![8192]⟩
abbrev S3774873 : Shape := ⟨1, ![3774873]⟩
abbrev S1x8192 : Shape := ⟨2, ![1, 8192]⟩
abbrev S16x8192 : Shape := ⟨2, ![16, 8192]⟩
abbrev S16x9216 : Shape := ⟨2, ![16, 9216]⟩
abbrev S9216x16 : Shape := ⟨2, ![9216, 16]⟩
abbrev S_ : Shape := ⟨0, ![]⟩
abbrev S3774873x1 : Shape := ⟨2, ![3774873, 1]⟩
abbrev S3774873x16 : Shape := ⟨2, ![3774873, 16]⟩
abbrev S8192x16 : Shape := ⟨2, ![8192, 16]⟩
abbrev S16x256 : Shape := ⟨2, ![16, 256]⟩

abbrev nBuf : Space → Nat
  | .hbm => 87
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S3774873, .f32⟩
  | .hbm, ⟨6, _⟩ => ⟨S3774873, .i32⟩
  | .hbm, ⟨7, _⟩ => ⟨S3774873, .i32⟩
  | .hbm, ⟨8, _⟩ => ⟨S8192, .i32⟩
  | .hbm, ⟨9, _⟩ => ⟨S1x8192, .f32⟩
  | .hbm, ⟨10, _⟩ => ⟨S16x8192, .f32⟩
  | .hbm, ⟨11, _⟩ => ⟨S16x9216, .f32⟩
  | .hbm, ⟨12, _⟩ => ⟨S9216x16, .f32⟩
  | .hbm, ⟨13, _⟩ => ⟨S_, .i32⟩
  | .hbm, ⟨14, _⟩ => ⟨S3774873, .i32⟩
  | .hbm, ⟨15, _⟩ => ⟨S3774873, .i1⟩
  | .hbm, ⟨16, _⟩ => ⟨S_, .i32⟩
  | .hbm, ⟨17, _⟩ => ⟨S3774873, .i32⟩
  | .hbm, ⟨18, _⟩ => ⟨S3774873, .i32⟩
  | .hbm, ⟨19, _⟩ => ⟨S3774873, .i32⟩
  | .hbm, ⟨20, _⟩ => ⟨S3774873x1, .i32⟩
  | .hbm, ⟨21, _⟩ => ⟨S3774873x16, .f32⟩
  | .hbm, ⟨22, _⟩ => ⟨S3774873x1, .f32⟩
  | .hbm, ⟨23, _⟩ => ⟨S3774873x16, .f32⟩
  | .hbm, ⟨24, _⟩ => ⟨S3774873x16, .f32⟩
  | .hbm, ⟨25, _⟩ => ⟨S_, .f32⟩
  | .hbm, ⟨26, _⟩ => ⟨S8192x16, .f32⟩
  | .hbm, ⟨27, _⟩ => ⟨S3774873x1, .i32⟩
  | .hbm, ⟨28, _⟩ => ⟨S8192x16, .f32⟩
  | .hbm, ⟨29, _⟩ => ⟨S16x8192, .f32⟩
  | .hbm, ⟨30, _⟩ => ⟨S1x8192, .f32⟩
  | .hbm, ⟨31, _⟩ => ⟨S1x8192, .f32⟩
  | .hbm, ⟨32, _⟩ => ⟨S16x8192, .f32⟩
  | .hbm, ⟨33, _⟩ => ⟨S16x8192, .f32⟩
  | .hbm, ⟨34, _⟩ => ⟨S1x8192, .f32⟩
  | .hbm, ⟨35, _⟩ => ⟨S16x8192, .f32⟩
  | .hbm, ⟨36, _⟩ => ⟨S16x8192, .f32⟩
  | .hbm, ⟨37, _⟩ => ⟨S1x8192, .f32⟩
  | .hbm, ⟨38, _⟩ => ⟨S16x8192, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S1x8192, .f32⟩
  | .hbm, ⟨44, _⟩ => ⟨S16x8192, .f32⟩
  | .hbm, ⟨45, _⟩ => ⟨S16x8192, .f32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S8192, .f32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S8192, .f32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S8192, .f32⟩
  | .hbm, ⟨58, _⟩ => ⟨S16x8192, .f32⟩
  | .hbm, ⟨59, _⟩ => ⟨S1x8192, .f32⟩
  | .hbm, ⟨60, _⟩ => ⟨S16x8192, .f32⟩
  | .hbm, ⟨61, _⟩ => ⟨S16x8192, .f32⟩
  | .hbm, ⟨62, _⟩ => ⟨S16x8192, .f32⟩
  | .hbm, ⟨63, _⟩ => ⟨S16x8192, .f32⟩
  | .hbm, ⟨64, _⟩ => ⟨S_, .f32⟩
  | .hbm, ⟨65, _⟩ => ⟨S16x8192, .f32⟩
  | .hbm, ⟨66, _⟩ => ⟨S16x8192, .f32⟩
  | .hbm, ⟨67, _⟩ => ⟨S_, .f32⟩
  | .hbm, ⟨68, _⟩ => ⟨S16x8192, .f32⟩
  | .hbm, ⟨69, _⟩ => ⟨S16x8192, .f32⟩
  | .hbm, ⟨70, _⟩ => ⟨S1x8192, .f32⟩
  | .hbm, ⟨71, _⟩ => ⟨S16x8192, .f32⟩
  | .hbm, ⟨72, _⟩ => ⟨S16x8192, .f32⟩
  | .hbm, ⟨73, _⟩ => ⟨S16x8192, .f32⟩
  | .hbm, ⟨74, _⟩ => ⟨S_, .f32⟩
  | .hbm, ⟨75, _⟩ => ⟨S16x8192, .f32⟩
  | .hbm, ⟨76, _⟩ => ⟨S16x8192, .f32⟩
  | .hbm, ⟨77, _⟩ => ⟨S1x8192, .f32⟩
  | .hbm, ⟨78, _⟩ => ⟨S16x8192, .f32⟩
  | .hbm, ⟨79, _⟩ => ⟨S16x8192, .f32⟩
  | .hbm, ⟨80, _⟩ => ⟨S16x8192, .f32⟩
  | .hbm, ⟨81, _⟩ => ⟨S16x256, .f32⟩
  | .hbm, ⟨82, _⟩ => ⟨S16x8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call0_cst : Ref sig .tc := ⟨.hbm, 74, rfl⟩
abbrev main_call0_v0 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  concatenates_S16x1024_S16x8192_S16x9216_d1 : Shape.Concatenates [S16x1024, S16x8192] S16x9216 1
  transposes_S16x9216_S9216x16_1_0 : S16x9216.Transposes [1, 0] S9216x16
  bcast_S_S3774873 : S_.BroadcastsInDim S3774873 (![] : Fin 0 → Fin S3774873.rank)
  bcast_S3774873_S3774873x1_0 : S3774873.BroadcastsInDim S3774873x1 (![0] : Fin 1 → Fin S3774873x1.rank)
  bcast_S3774873x1_S3774873x16_0_1 : S3774873x1.BroadcastsInDim S3774873x16 (![0, 1] : Fin 2 → Fin S3774873x16.rank)
  bcast_S_S8192x16 : S_.BroadcastsInDim S8192x16 (![] : Fin 0 → Fin S8192x16.rank)
  transposes_S8192x16_S16x8192_1_0 : S8192x16.Transposes [1, 0] S16x8192
  bcast_S_S16x8192 : S_.BroadcastsInDim S16x8192 (![] : Fin 0 → Fin S16x8192.rank)
  bcast_S_S8192 : S_.BroadcastsInDim S8192 (![] : Fin 0 → Fin S8192.rank)
  slices_S16x8192_S16x256_0_7934 : S16x8192.Slices ![0, 7934] S16x256
  reducesTo_S16x8192_S_d0_1 : S16x8192.ReducesTo [0, 1] S_
  h_S_ : 0 < S_.numel
  gather_S9216x16_S3774873x1_S3774873x16_1_0_n_n_0_1_116_wf : GatherDims.WF S9216x16 S3774873x1 S3774873x16 [1] [0] [] [0] [] 1 ![1, 16]
  scatter_S8192x16_S3774873x1_S3774873x16_1_0_0_1_wf : ScatterDims.WF S8192x16 S3774873x1 S3774873x16 [1] [0] [0] 1

variable [Facts₀]

def gather_S9216x16_S3774873x1_S3774873x16_1_0_n_n_0_1_116 : GatherDims S9216x16 S3774873x1 S3774873x16 where
  offsetDims := [1]
  collapsedSliceDims := [0]
  operandBatchingDims := []
  startIndicesBatchingDims := []
  startIndexMap := [0]
  indexVectorDim := 1
  sliceSizes := ![1, 16]
  wf := gather_S9216x16_S3774873x1_S3774873x16_1_0_n_n_0_1_116_wf
def scatter_S8192x16_S3774873x1_S3774873x16_1_0_0_1 : ScatterDims S8192x16 S3774873x1 S3774873x16 where
  updateWindowDims := [1]
  insertedWindowDims := [0]
  scatterDimsToOperandDims := [0]
  indexVectorDim := 1
  wf := scatter_S8192x16_S3774873x1_S3774873x16_1_0_0_1_wf

class Facts : Prop extends Facts₀ where

variable [Facts]
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.Spec.lean ====
/-
  One Euler step of a sparsely connected leaky network, as functions of the argument arrays over the extended reals.

  The state has 8192 units and the network 1024 external inputs; a batch has 16 rows. Row `b` of the matrix
  `comb : [16, 9216]` is the batch row's inputs followed by the previous outputs `y` (the same for every batch row).
  The connections are a list of 3774873 edges `k`, each with a weight `w k`, a target unit `rows k` and a source column
  `cols k` of `comb`. The drive of unit `h` in batch row `b` is the sum over the edges into `h` of
  `w k * comb b (cols k)`; the new state is `x + ((-x + drive + bias) / tau) * dt`; the new output applies to it the
  unit's activation, chosen by `act_type` among tanh, the logistic function and the positive part through three 0/1
  masks. The three results are columns 7934 … 8189 of the new outputs, the new state, and the sum of the absolute
  values of all new outputs times a constant.
-/
import Idealize.ShloMosaic.PureOps.Ideal
import Idealize.ShloMosaic.Lib.ValueIdx
import proofs.«415341_j11596411699830_1_alg».proof.Proof.LibRowOps

noncomputable section

open scoped BigOperators

namespace Liquid

open Idealize.ShloMosaic Idealize.ShloMosaic.ValueIdx

abbrev SIn : Shape := ⟨2, ![16, 1024]⟩
abbrev SH : Shape := ⟨1, ![8192]⟩
abbrev SE : Shape := ⟨1, ![3774873]⟩
abbrev SBH : Shape := ⟨2, ![16, 8192]⟩
abbrev SOut : Shape := ⟨2, ![16, 256]⟩
abbrev S0 : Shape := ⟨0, ![]⟩

/-- The source column of edge `k`: its `cols` entry read signed, as a column of `comb` (clamped into range; in range
    already when the indices are). -/
def colIx (cols : IVec SE 32) (k : Fin 3774873) : Fin 9216 := RowOps.clampRow 9216 (by decide) (cols (ix1 k))

/-- Entry `(b, c)` of `comb`: the inputs on the first 1024 columns, then `y`. -/
def comb (inp : SIn.Idx → EReal) (y : SH.Idx → EReal) (b : Fin 16) (c : Fin 9216) : EReal :=
  if h : c.val < 1024 then inp (ix2 b ⟨c.val, h⟩) else y (ix1 ⟨c.val - 1024, by have := c.isLt; omega⟩)

/-- The drive of unit `h` in batch row `b`: the sum over the edges whose target is `h` of weight times source. -/
def drive (inp : SIn.Idx → EReal) (y : SH.Idx → EReal) (w : SE.Idx → EReal) (rows cols : IVec SE 32)
    (b : Fin 16) (h : Fin 8192) : EReal :=
  ∑ k ∈ Finset.univ.filter (fun k : Fin 3774873 => (rows (ix1 k)).toInt = (h.val : Int)),
    w (ix1 k) * comb inp y b (colIx cols k)

/-- The new state of a unit from its drive `a`: `x + ((-x + a + bias) / tau) * dt`, `dt` the binary value of 0.1f. -/
def stepX (x bias tau a : EReal) : EReal :=
  x + Ideal.div ((-x + a) + bias) tau * Ideal.ofBits .f32 0x3DCCCCCD#32

/-- The 0/1 mask "the unit's activation type is `k`". -/
def mask (t k : BitVec 32) : EReal := (((IntOp.cmpi .eq t k).toNat : ℝ) : EReal)

/-- The new output of a unit of activation type `t` from its new state. -/
def actY (t : BitVec 32) (nx : EReal) : EReal :=
  (Ideal.tanh nx * mask t 0#32 + Ideal.logistic nx * mask t 1#32) + max nx 0 * mask t 2#32

/-- The new state, entry `(b, h)`. -/
def newX (inp : SIn.Idx → EReal) (x y tau bias : SH.Idx → EReal) (w : SE.Idx → EReal) (rows cols : IVec SE 32)
    (b : Fin 16) (h : Fin 8192) : EReal :=
  stepX (x (ix1 h)) (bias (ix1 h)) (tau (ix1 h)) (drive inp y w rows cols b h)

/-- The new state as an array. -/
def newXArr (inp : SIn.Idx → EReal) (x y tau bias : SH.Idx → EReal) (w : SE.Idx → EReal) (rows cols : IVec SE 32) :
    SBH.Idx → EReal := fun j => newX inp x y tau bias w rows cols (j 0) (j 1)

/-- The new outputs as an array. -/
def newYArr (inp : SIn.Idx → EReal) (x y tau bias : SH.Idx → EReal) (w : SE.Idx → EReal) (rows cols : IVec SE 32)
    (act : IVec SH 32) : SBH.Idx → EReal :=
  fun j => actY (act (ix1 (j 1))) (newX inp x y tau bias w rows cols (j 0) (j 1))

/-- Columns 7934 … 8189 of an array of outputs. -/
def outSlice (hs : SBH.Slices ![0, 7934] SOut) (ny : FVec Ideal SBH .f32) : FVec Ideal SOut .f32 :=
  extractStridedSlice SOut ![0, 7934] ny hs

/-- The sum of the absolute values of all outputs, times the binary value of 0.001f. -/
def energy (hr : SBH.ReducesTo [0, 1] S0) (h0 : 0 < S0.numel) (ny : FVec Ideal SBH .f32) : FVec Ideal S0 .f32 :=
  mulf (Host.reduceAdd (F := Ideal) (Host.absf (F := Ideal) ny) (constant (F := Ideal) S0 .f32 0x00000000#32) hr h0)
    (constant (F := Ideal) S0 .f32 0x3A83126F#32)

/-- What the precondition says of the arguments: the inputs, the previous outputs and the weights are real numbers,
    and every edge's target and source are in range. -/
structure PreFacts (inp : SIn.Idx → EReal) (y : SH.Idx → EReal) (w : SE.Idx → EReal) (rows cols : IVec SE 32) : Prop where
  inp_fin : ∀ i, inp i ≠ ⊤ ∧ inp i ≠ ⊥
  y_fin : ∀ i, y i ≠ ⊤ ∧ y i ≠ ⊥
  w_fin : ∀ i, w i ≠ ⊤ ∧ w i ≠ ⊥
  rows_rng : ∀ k : Fin 3774873, 0 ≤ (rows (ix1 k)).toInt ∧ (rows (ix1 k)).toInt < 8192
  cols_rng : ∀ k : Fin 3774873, 0 ≤ (cols (ix1 k)).toInt ∧ (cols (ix1 k)).toInt < 9216

/-- Under the range fact the clamped column is the column itself. -/
theorem colIx_val {cols : IVec SE 32} (hc : ∀ k : Fin 3774873, 0 ≤ (cols (ix1 k)).toInt ∧ (cols (ix1 k)).toInt < 9216)
    (k : Fin 3774873) : (cols (ix1 k)).toInt = ((colIx cols k).val : Int) := by
  have := hc k
  show _ = ((min (cols (ix1 k)).toInt.toNat (9216 - 1) : Nat) : Int)
  omega

/-- Every entry of `comb` is a real number when the inputs and `y` are. -/
theorem comb_fin {inp : SIn.Idx → EReal} {y : SH.Idx → EReal} (hi : ∀ i, inp i ≠ ⊤ ∧ inp i ≠ ⊥) (hy : ∀ i, y i ≠ ⊤ ∧ y i ≠ ⊥)
    (b : Fin 16) (c : Fin 9216) : comb inp y b c ≠ ⊤ ∧ comb inp y b c ≠ ⊥ := by
  unfold comb; split
  · exact hi _
  · exact hy _

end Liquid

end
-- ==== Proof.Pre.lean ====
/-
  What the precondition says of the arguments.

  The precondition is the conjunction of eight "every element of …" tests: the absolute value of every entry of each of
  the six real arrays is below +infinity, every `rows` entry is in [0, 8192) and every `cols` entry is in [0, 9216),
  each test a reduction by "and" of a one-bit array. Read back: the inputs, the previous outputs and the weights are
  real numbers, and the two index arrays are in range, read as signed integers.
-/
import proofs.«415341_j11596411699830_1_alg».proof.Pre_finite_inputs
import proofs.«415341_j11596411699830_1_alg».proof.Proof.Spec
import Idealize.ShloMosaic.Lib.ReduceAll

noncomputable section

namespace Liquid

open Idealize.ShloMosaic Idealize.ShloMosaic.ValueIdx

/-- The elementwise "and" of two arrays of words, at an index. -/
private theorem andi_apply {s : Shape} {w : Nat} (x y : IVec s w) (i : s.Idx) : andi x y i = IntOp.andi (x i) (y i) := rfl

/-- The pattern 0x7F800000 (exponent all ones, significand zero, sign clear) denotes +infinity. -/
private theorem ofBits_inf : Ideal.ofBits .f32 0x7F800000#32 = (⊤ : EReal) := by simp [Ideal.ofBits, Ideal.ieee]

/-- An extended real whose absolute value `max x (-x)` is strictly below +infinity is neither infinity: at `⊤` the
    maximum is `⊤` itself, at `⊥` it is `-⊥ = ⊤`, and `⊤ < ⊤` is false. -/
private theorem fin_of_abs_lt (x : EReal) (h : Ideal.cmp .olt (max x (-x)) (Ideal.ofBits .f32 0x7F800000#32) = 1#1) :
    x ≠ ⊤ ∧ x ≠ ⊥ := by
  rw [ofBits_inf] at h
  induction x using EReal.rec with
  | bot => simp [Ideal.cmp] at h
  | coe r => exact ⟨EReal.coe_ne_top r, EReal.coe_ne_bot r⟩
  | top => simp [Ideal.cmp] at h

/-- The two one-bit tests `lo ≤ x` and `x < hi` (signed) both 1 say `x` lies in `[lo, hi)` read as integers. -/
private theorem rng_of_tests (x lo hi : BitVec 32) (h : IntOp.andi (IntOp.cmpi .sge x lo) (IntOp.cmpi .slt x hi) = 1#1) :
    lo.toInt ≤ x.toInt ∧ x.toInt < hi.toInt := by
  obtain ⟨h1, h2⟩ := IntOp.andi_eq_one.1 h
  exact ⟨IntOp.cmpi_sge.1 h1, IntOp.cmpi_slt.1 h2⟩

/-- The precondition, read back (see the header). -/
theorem preFacts_of_pre [Cert.Pre_finite_inputs.Facts]
    (a0 : FVec Ideal SIn .f32) (a1 a2 a3 a4 : FVec Ideal SH .f32) (a5 : FVec Ideal SE .f32) (a6 a7 : IVec SE 32)
    (a8 : IVec SH 32)
    (h : Cert.Pre_finite_inputs.fn (F := Ideal) a0 a1 a2 a3 a4 a5 a6 a7 a8 = fun _ => 1#1) :
    PreFacts a0 a2 a5 a6 a7 := by
  -- the value at the one index of the rank-0 result is 1: a left-nested "and" of the eight tests
  have h0 := congrFun h ix0
  dsimp only [Cert.Pre_finite_inputs.fn, Cert.Pre_finite_inputs.fn_part1, Cert.Pre_finite_inputs.fn_part2] at h0
  simp only [andi_apply, IntOp.andi_eq_one] at h0
  obtain ⟨⟨⟨⟨⟨⟨⟨h_a0, -⟩, h_a2⟩, -⟩, -⟩, h_a5⟩, h_a6⟩, h_a7⟩ := h0
  -- the rank-0 shape has exactly one index: there is no axis to give a coordinate on
  haveI : Subsingleton Cert.Pre_finite_inputs.S_.Idx := ⟨fun _ _ => funext fun d => d.elim0⟩
  have e0 : (0#32 : BitVec 32).toInt = 0 := by decide
  have e8192 : (8192#32 : BitVec 32).toInt = 8192 := by decide
  have e9216 : (9216#32 : BitVec 32).toInt = 9216 := by decide
  -- each test is a reduction by "and" over all axes that came out 1, so every element of the tested array is 1;
  -- the broadcast constant reads the same word at every index
  refine ⟨fun i => ?_, fun i => ?_, fun i => ?_, fun k => ?_, fun k => ?_⟩
  · exact fin_of_abs_lt (a0 i) (Host.reduce_andi_all _ _ _ _ _ h_a0 i)
  · exact fin_of_abs_lt (a2 i) (Host.reduce_andi_all _ _ _ _ _ h_a2 i)
  · exact fin_of_abs_lt (a5 i) (Host.reduce_andi_all _ _ _ _ _ h_a5 i)
  · have t := rng_of_tests (a6 (ix1 k)) 0#32 8192#32 (Host.reduce_andi_all _ _ _ _ _ h_a6 (ix1 k))
    rw [e0, e8192] at t
    exact t
  · have t := rng_of_tests (a7 (ix1 k)) 0#32 9216#32 (Host.reduce_andi_all _ _ _ _ _ h_a7 (ix1 k))
    rw [e0, e9216] at t
    exact t

end Liquid

end
-- ==== Proof.RefValue.lean ====
/-
  The reference program computes the specification.

  Read one operation at a time, the reference gathers for every edge the row of the transposed `comb` its source names,
  multiplies it by the edge's weight, adds the products into the row its target names, transposes back, and applies
  the state update and the activation entry by entry. With the sources in range the gathered row is the source's own,
  so entry `(b, h)` of the accumulated matrix is the drive of unit `h` in batch row `b`.
-/
import proofs.«415341_j11596411699830_1_alg».proof.Proof.Gen.ReferenceIdeal.Read
import proofs.«415341_j11596411699830_1_alg».proof.Proof.Spec
import Idealize.ShloMosaic.Lib.IdealHost

noncomputable section

open scoped BigOperators

namespace Liquid.Ref

open Idealize.ShloMosaic Idealize.ShloMosaic.ValueIdx Liquid
open Cert.ReferenceIdeal Cert.ReferenceIdeal.Gen

/-! ## The matrix `comb` -/

/-- Entry `(b, c)` of the concatenation of the inputs and the broadcast previous outputs is `comb`. -/
theorem v2_at [Cert.ReferenceIdeal.Facts] (x0 : FVec Ideal SIn .f32) (x2 : FVec Ideal SH .f32) (b : Fin 16) (c : Fin 9216) :
    Read.val_main_v2 (F := Ideal) x0 x2 (ix2 b c) = comb x0 x2 b c := by
  unfold comb Read.val_main_v2
  split
  · rename_i hc
    exact concatenate_pair_apply_left (t := S16x9216) (s₁ := S16x1024) (s₂ := S16x8192) 1 x0 _ _ (ix2 b c) rfl
      (ix2 b ⟨c.val, hc⟩) (fun a => match a with | ⟨0, _⟩ => rfl | ⟨1, _⟩ => rfl)
  · rename_i hc
    have hc' : 1024 ≤ c.val := Nat.le_of_not_lt hc
    have hlt : c.val - 1024 < 8192 := by have := c.isLt; omega
    rw [concatenate_pair_apply_right (t := S16x9216) (s₁ := S16x1024) (s₂ := S16x8192) 1 x0 _ _ (ix2 b c) rfl rfl
      (ix2 b ⟨c.val - 1024, hlt⟩)
      (fun a => match a with | ⟨0, _⟩ => fun _ => rfl | ⟨1, _⟩ => fun h => absurd rfl h)
      (by show c.val - 1024 + 1024 = c.val; omega)]
    rw [Read.val_main_v1_apply, Read.val_main_v0_apply]
    exact congrArg x2 (funext fun a => match a with | ⟨0, _⟩ => rfl)

/-- The transposed matrix: entry `(c, b)` is `comb b c`. -/
theorem v3_at [Cert.ReferenceIdeal.Facts] (x0 : FVec Ideal SIn .f32) (x2 : FVec Ideal SH .f32) (c : Fin 9216) (b : Fin 16) :
    Read.val_main_v3 (F := Ideal) x0 x2 (ix2 c b) = comb x0 x2 b c := by
  rw [Read.val_main_v3_apply, ← v2_at]
  exact congrArg _ (funext fun a => match a with | ⟨0, _⟩ => rfl | ⟨1, _⟩ => rfl)

/-! ## The sources -/

/-- A source in range is not negative, so the wrap-around select leaves it as it is. -/
theorem v8_at [Cert.ReferenceIdeal.Facts] (x7 : IVec SE 32)
    (hc : ∀ k : Fin 3774873, 0 ≤ (x7 (ix1 k)).toInt ∧ (x7 (ix1 k)).toInt < 9216) (k : Fin 3774873) :
    Read.val_main_v8 (F := Ideal) x7 (ix1 k) = x7 (ix1 k) := by
  rw [Read.val_main_v8_apply, Read.val_main_v5_apply, Read.val_main_v4_apply, Read.val_main_c_apply]
  have h0 : IntOp.cmpi .slt (x7 (ix1 k)) 0#32 = 0#1 := by
    refine eq_zero_of_ne_one fun h => ?_
    have h1 := IntOp.cmpi_slt.mp h
    have h2 := (hc k).1
    have h3 : (0#32 : BitVec 32).toInt = 0 := by decide
    omega
  rw [h0, select_zero]

/-- The column of sources, entry `(k, 0)`. -/
theorem v9_at [Cert.ReferenceIdeal.Facts] (x7 : IVec SE 32)
    (hc : ∀ k : Fin 3774873, 0 ≤ (x7 (ix1 k)).toInt ∧ (x7 (ix1 k)).toInt < 9216) (k : Fin 3774873) :
    Read.val_main_v9 (F := Ideal) x7 (ix2 k 0) = x7 (ix1 k) := by
  rw [Read.val_main_v9_apply, ← v8_at x7 hc k]
  exact congrArg _ (funext fun a => match a with | ⟨0, _⟩ => rfl)

/-! ## The gathered rows -/

/-- The printed gather record is the row gather's. -/
theorem gatherRec_eq [Cert.ReferenceIdeal.Facts] :
    gather_S9216x16_S3774873x1_S3774873x16_1_0_n_n_0_1_116
      = RowOps.gatherDims 9216 3774873 16 Facts₀.gather_S9216x16_S3774873x1_S3774873x16_1_0_n_n_0_1_116_wf := rfl

/-- Row `k` of the gathered matrix is the row of the transposed `comb` that edge `k`'s source names. -/
theorem v10_at [Cert.ReferenceIdeal.Facts] (x0 : FVec Ideal SIn .f32) (x2 : FVec Ideal SH .f32) (x7 : IVec SE 32)
    (hc : ∀ k : Fin 3774873, 0 ≤ (x7 (ix1 k)).toInt ∧ (x7 (ix1 k)).toInt < 9216) (k : Fin 3774873) (b : Fin 16) :
    Read.val_main_v10 (F := Ideal) x0 x2 x7 (ix2 k b) = comb x0 x2 b (colIx x7 k) := by
  unfold Read.val_main_v10
  rw [gatherRec_eq, RowOps.gather_apply (by decide), v9_at x7 hc k, v3_at]
  rfl

/-! ## The products and their accumulation -/

/-- The weights broadcast along the batch axis: row `k` is edge `k`'s weight. -/
theorem v12_at [Cert.ReferenceIdeal.Facts] (x5 : FVec Ideal SE .f32) (k : Fin 3774873) (b : Fin 16) :
    Read.val_main_v12 (F := Ideal) x5 (ix2 k b) = x5 (ix1 k) := by
  rw [Read.val_main_v12_apply, Read.val_main_v11_apply]
  exact congrArg x5 (funext fun a => match a with | ⟨0, _⟩ => rfl)

/-- Row `k` of the products: the weight times the source's entry of `comb`. -/
theorem v13_at [Cert.ReferenceIdeal.Facts] (x0 : FVec Ideal SIn .f32) (x2 : FVec Ideal SH .f32) (x5 : FVec Ideal SE .f32) (x7 : IVec SE 32)
    (hc : ∀ k : Fin 3774873, 0 ≤ (x7 (ix1 k)).toInt ∧ (x7 (ix1 k)).toInt < 9216) (k : Fin 3774873) (b : Fin 16) :
    Read.val_main_v13 (F := Ideal) x0 x2 x5 x7 (ix2 k b) = x5 (ix1 k) * comb x0 x2 b (colIx x7 k) := by
  rw [Read.val_main_v13_apply, v12_at, v10_at x0 x2 x7 hc]
  rfl

/-- The matrix the accumulation starts from is zero. -/
theorem v14_at [Cert.ReferenceIdeal.Facts] (i : S8192x16.Idx) : Read.val_main_v14 (F := Ideal) i = 0 := by
  rw [Read.val_main_v14_apply, Read.val_main_cst_apply]
  exact Ideal.ofBits_zero_f32

/-- The column of targets, entry `(k, 0)`. -/
theorem v15_at [Cert.ReferenceIdeal.Facts] (x6 : IVec SE 32) (k : Fin 3774873) :
    Read.val_main_v15 (F := Ideal) x6 (ix2 k 0) = x6 (ix1 k) := by
  rw [Read.val_main_v15_apply]
  exact congrArg x6 (funext fun a => match a with | ⟨0, _⟩ => rfl)

/-- The printed scatter record is the row scatter-add's. -/
theorem scatterRec_eq [Cert.ReferenceIdeal.Facts] :
    scatter_S8192x16_S3774873x1_S3774873x16_1_0_0_1
      = RowOps.scatterDims 8192 3774873 16 Facts₀.scatter_S8192x16_S3774873x1_S3774873x16_1_0_0_1_wf := rfl

/-- Entry `(h, b)` of the accumulated matrix is the drive of unit `h` in batch row `b`. -/
theorem v16_at [Cert.ReferenceIdeal.Facts] (x0 : FVec Ideal SIn .f32) (x2 : FVec Ideal SH .f32) (x5 : FVec Ideal SE .f32) (x6 x7 : IVec SE 32)
    (hc : ∀ k : Fin 3774873, 0 ≤ (x7 (ix1 k)).toInt ∧ (x7 (ix1 k)).toInt < 9216) (h : Fin 8192) (b : Fin 16) :
    Read.val_main_v16 (F := Ideal) x0 x2 x5 x6 x7 (ix2 h b) = drive x0 x2 x5 x6 x7 b h := by
  unfold Read.val_main_v16 drive
  rw [scatterRec_eq, RowOps.scatterAdd_apply, v14_at, zero_add]
  simp only [v15_at, v13_at x0 x2 x5 x7 hc]

/-- Entry `(b, h)` of the transposed accumulated matrix is the drive of unit `h` in batch row `b`. -/
theorem v17_at [Cert.ReferenceIdeal.Facts] (x0 : FVec Ideal SIn .f32) (x2 : FVec Ideal SH .f32) (x5 : FVec Ideal SE .f32) (x6 x7 : IVec SE 32)
    (hc : ∀ k : Fin 3774873, 0 ≤ (x7 (ix1 k)).toInt ∧ (x7 (ix1 k)).toInt < 9216) (b : Fin 16) (h : Fin 8192) :
    Read.val_main_v17 (F := Ideal) x0 x2 x5 x6 x7 (ix2 b h) = drive x0 x2 x5 x6 x7 b h := by
  rw [Read.val_main_v17_apply, ← v16_at x0 x2 x5 x6 x7 hc h b]
  exact congrArg _ (funext fun a => match a with | ⟨0, _⟩ => rfl | ⟨1, _⟩ => rfl)

/-! ## The state update -/

/-- A vector over the units broadcast along the batch axis reads the unit's entry (the four broadcasts of the update). -/
theorem v31_at [Cert.ReferenceIdeal.Facts] (x1 : FVec Ideal SH .f32) (b : Fin 16) (h : Fin 8192) :
    Read.val_main_v31 (F := Ideal) x1 (ix2 b h) = x1 (ix1 h) := by
  rw [Read.val_main_v31_apply, Read.val_main_v30_apply]
  exact congrArg x1 (funext fun a => match a with | ⟨0, _⟩ => rfl)

theorem v26_at [Cert.ReferenceIdeal.Facts] (x3 : FVec Ideal SH .f32) (b : Fin 16) (h : Fin 8192) :
    Read.val_main_v26 (F := Ideal) x3 (ix2 b h) = x3 (ix1 h) := by
  rw [Read.val_main_v26_apply, Read.val_main_v25_apply]
  exact congrArg x3 (funext fun a => match a with | ⟨0, _⟩ => rfl)

theorem v23_at [Cert.ReferenceIdeal.Facts] (x4 : FVec Ideal SH .f32) (b : Fin 16) (h : Fin 8192) :
    Read.val_main_v23 (F := Ideal) x4 (ix2 b h) = x4 (ix1 h) := by
  rw [Read.val_main_v23_apply, Read.val_main_v22_apply]
  exact congrArg x4 (funext fun a => match a with | ⟨0, _⟩ => rfl)

/-- The negated state broadcast along the batch axis. -/
theorem v20_at [Cert.ReferenceIdeal.Facts] (x1 : FVec Ideal SH .f32) (b : Fin 16) (h : Fin 8192) :
    Read.val_main_v20 (F := Ideal) x1 (ix2 b h) = -x1 (ix1 h) := by
  rw [Read.val_main_v20_apply, Read.val_main_v19_apply, Read.val_main_v18_apply, Ideal.hostNegf_def, Ideal.negf_def]
  exact congrArg (fun i => -x1 i) (funext fun a => match a with | ⟨0, _⟩ => rfl)

/-- The step size broadcast to the whole array. -/
theorem v28_at [Cert.ReferenceIdeal.Facts] (i : S16x8192.Idx) :
    Read.val_main_v28 (F := Ideal) i = Ideal.ofBits .f32 0x3DCCCCCD#32 := by
  rw [Read.val_main_v28_apply, Read.val_main_cst_1_apply]
  rfl

/-- Entry `(b, h)` of the reference's new state is the specification's. -/
theorem v32_at [Cert.ReferenceIdeal.Facts] (x0 : FVec Ideal SIn .f32) (x1 x2 x3 x4 : FVec Ideal SH .f32) (x5 : FVec Ideal SE .f32)
    (x6 x7 : IVec SE 32) (hp : PreFacts x0 x2 x5 x6 x7) (b : Fin 16) (h : Fin 8192) :
    Read.val_main_v32 (F := Ideal) x0 x1 x2 x3 x4 x5 x6 x7 (ix2 b h) = newX x0 x1 x2 x3 x4 x5 x6 x7 b h := by
  rw [Read.val_main_v32_apply, Read.val_main_v29_apply, Read.val_main_v27_apply, Read.val_main_v24_apply,
    Read.val_main_v21_apply, v31_at, v28_at, v26_at, v23_at, v20_at, v17_at x0 x2 x5 x6 x7 hp.cols_rng]
  rfl

/-! ## The activation -/

/-- The three 0/1 masks of the activation type, broadcast along the batch axis. -/
theorem v44_at [Cert.ReferenceIdeal.Facts] (x8 : IVec SH 32) (b : Fin 16) (h : Fin 8192) :
    Read.val_main_v44 (F := Ideal) x8 (ix2 b h) = mask (x8 (ix1 h)) 0#32 := by
  rw [Read.val_main_v44_apply, Read.val_main_v43_apply, Read.val_main_v35_apply, Read.val_main_v34_apply,
    Read.val_main_v33_apply, Read.val_main_c_2_apply]
  exact congrArg (fun i => mask (x8 i) 0#32) (funext fun a => match a with | ⟨0, _⟩ => rfl)

theorem v53_at [Cert.ReferenceIdeal.Facts] (x8 : IVec SH 32) (b : Fin 16) (h : Fin 8192) :
    Read.val_main_v53 (F := Ideal) x8 (ix2 b h) = mask (x8 (ix1 h)) 1#32 := by
  rw [Read.val_main_v53_apply, Read.val_main_v52_apply, Read.val_main_v38_apply, Read.val_main_v37_apply,
    Read.val_main_v36_apply, Read.val_main_c_3_apply]
  exact congrArg (fun i => mask (x8 i) 1#32) (funext fun a => match a with | ⟨0, _⟩ => rfl)

theorem v58_at [Cert.ReferenceIdeal.Facts] (x8 : IVec SH 32) (b : Fin 16) (h : Fin 8192) :
    Read.val_main_v58 (F := Ideal) x8 (ix2 b h) = mask (x8 (ix1 h)) 2#32 := by
  rw [Read.val_main_v58_apply, Read.val_main_v57_apply, Read.val_main_v41_apply, Read.val_main_v40_apply,
    Read.val_main_v39_apply, Read.val_main_c_4_apply]
  exact congrArg (fun i => mask (x8 i) 2#32) (funext fun a => match a with | ⟨0, _⟩ => rfl)

/-- The two arrays of ones of the logistic function. -/
theorem v48_at [Cert.ReferenceIdeal.Facts] (i : S16x8192.Idx) : Read.val_main_v48 (F := Ideal) i = 1 := by
  rw [Read.val_main_v48_apply, Read.val_main_cst_5_apply]
  exact Ideal.ofBits_one_f32

theorem v50_at [Cert.ReferenceIdeal.Facts] (i : S16x8192.Idx) : Read.val_main_v50 (F := Ideal) i = 1 := by
  rw [Read.val_main_v50_apply, Read.val_main_cst_6_apply]
  exact Ideal.ofBits_one_f32

/-- The array of zeros the positive part compares with. -/
theorem call0_v0_at [Cert.ReferenceIdeal.Facts] (i : S16x8192.Idx) : Read.val_main_call0_v0 (F := Ideal) i = 0 := by
  rw [Read.val_main_call0_v0_apply, Read.val_main_call0_cst_apply]
  exact Ideal.ofBits_zero_f32

/-- Entry `(b, h)` of the reference's new outputs is the activation of the new state. -/
theorem v60_at [Cert.ReferenceIdeal.Facts] (x0 : FVec Ideal SIn .f32) (x1 x2 x3 x4 : FVec Ideal SH .f32) (x5 : FVec Ideal SE .f32)
    (x6 x7 : IVec SE 32) (x8 : IVec SH 32) (hp : PreFacts x0 x2 x5 x6 x7) (b : Fin 16) (h : Fin 8192) :
    Read.val_main_v60 (F := Ideal) x0 x1 x2 x3 x4 x5 x6 x7 x8 (ix2 b h)
      = actY (x8 (ix1 h)) (newX x0 x1 x2 x3 x4 x5 x6 x7 b h) := by
  rw [Read.val_main_v60_apply, Read.val_main_v55_apply, Read.val_main_v59_apply, Read.val_main_v45_apply,
    Read.val_main_v54_apply, Read.val_main_v56_apply, Read.val_main_v51_apply, Read.val_main_v49_apply,
    Read.val_main_v47_apply, Read.val_main_v46_apply, Read.val_main_v42_apply,
    v44_at, v53_at, v58_at, v48_at, v50_at, call0_v0_at, v32_at x0 x1 x2 x3 x4 x5 x6 x7 hp]
  rfl

/-! ## The two results -/

/-- The reference's new state is the specification's. -/
theorem newX_eq [Cert.ReferenceIdeal.Facts] (x0 : FVec Ideal SIn .f32) (x1 x2 x3 x4 : FVec Ideal SH .f32) (x5 : FVec Ideal SE .f32)
    (x6 x7 : IVec SE 32) (hp : PreFacts x0 x2 x5 x6 x7) :
    Cert.ReferenceIdeal.Read.val_main_v32 (F := Ideal) x0 x1 x2 x3 x4 x5 x6 x7 = newXArr x0 x1 x2 x3 x4 x5 x6 x7 := by
  funext j
  obtain ⟨b, h, rfl⟩ : ∃ (b : Fin 16) (h : Fin 8192), j = ix2 b h := ⟨j 0, j 1, eq_ix2 j⟩
  exact v32_at x0 x1 x2 x3 x4 x5 x6 x7 hp b h

/-- The reference's new outputs (before the slice and the sum) are the specification's. -/
theorem newY_eq [Cert.ReferenceIdeal.Facts] (x0 : FVec Ideal SIn .f32) (x1 x2 x3 x4 : FVec Ideal SH .f32) (x5 : FVec Ideal SE .f32)
    (x6 x7 : IVec SE 32) (x8 : IVec SH 32) (hp : PreFacts x0 x2 x5 x6 x7) :
    Cert.ReferenceIdeal.Read.val_main_v60 (F := Ideal) x0 x1 x2 x3 x4 x5 x6 x7 x8 = newYArr x0 x1 x2 x3 x4 x5 x6 x7 x8 := by
  funext j
  obtain ⟨b, h, rfl⟩ : ∃ (b : Fin 16) (h : Fin 8192), j = ix2 b h := ⟨j 0, j 1, eq_ix2 j⟩
  exact v60_at x0 x1 x2 x3 x4 x5 x6 x7 x8 hp b h

end Liquid.Ref

end
-- ==== Proof.KPieces.lean ====
/-
  What one run of the kernel's body leaves behind, case by case.

  The body adds to the accumulator the product of the staged block of `comb` with the staged block of `Mt`. At the
  first point of a row of the grid it first resets the accumulator to zero, so it leaves `0 + product`; at every later
  point it leaves `accumulator + product`. At the last point of a row it also applies the state update and the
  activation to the finished accumulator and stores the two results whole.
-/
import proofs.«415341_j11596411699830_1_alg».proof.Proof.Gen.KernelIdeal.Frame
import Idealize.ShloMosaic.Lib.Pipeline.Value
import Idealize.ShloMosaic.Lib.Tactic

noncomputable section

namespace Liquid.Kern

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First point of a row: the accumulator is reset, then receives the product. -/
theorem scratch_A (c : Dev nD) (i : grid0.Coords) (arg2 : Memref sig .tc .vmem S16x1536 .bf16) (harg2 : arg2.IsWhole) (arg3 : Memref sig .tc .vmem S1536x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .i32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (hc0 : cond0_0 i) (hc1 : ¬cond0_1 i)
    (x0 : Vec F S16x1536 .bf16) (x1 : Vec F S1536x2048 .bf16) (x2 : Vec F S1x2048 .f32) (x3 : Vec F S1x2048 .f32) (x4 : Vec F S1x2048 .f32) (x5 : Vec F S1x2048 .i32) :
    sout0_A_0 c i arg2 harg2 arg3 harg3 arg4 harg4 arg5 harg5 arg6 harg6 arg7 harg7 arg8 harg8 arg9 harg9 arg10 harg10 hc0 hc1 x0 x1 x2 x3 x4 x5 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S16x2048) hz, View.readCov_unit_zero (S := S16x2048) _ hz]
  simp only [View.readAt_eq_ld, harg2.read_unread, harg3.read_unread, View.ld_unit_zero (S := S16x1536) hz,
    View.ld_unit_zero (S := S1536x2048) hz, View.ld_unit_zero (S := S16x2048) hz]

/-- A later point of a row: the accumulator receives the product. -/
theorem scratch_B (c : Dev nD) (i : grid0.Coords) (arg2 : Memref sig .tc .vmem S16x1536 .bf16) (harg2 : arg2.IsWhole) (arg3 : Memref sig .tc .vmem S1536x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .i32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (hc0 : ¬cond0_0 i) (hc1 : ¬cond0_1 i)
    (x0 : Vec F S16x1536 .bf16) (x1 : Vec F S1536x2048 .bf16) (x2 : Vec F S1x2048 .f32) (x3 : Vec F S1x2048 .f32) (x4 : Vec F S1x2048 .f32) (x5 : Vec F S1x2048 .i32) (xs0 : Vec F S16x2048 .f32) :
    sout0_B_0 c i arg2 harg2 arg3 harg3 arg4 harg4 arg5 harg5 arg6 harg6 arg7 harg7 arg8 harg8 arg9 harg9 arg10 harg10 hc0 hc1 x0 x1 x2 x3 x4 x5 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz]
  simp only [View.readAt_eq_ld, harg2.read_unread, harg3.read_unread, harg10.read_unread, View.ld_unit_zero (S := S16x1536) hz,
    View.ld_unit_zero (S := S1536x2048) hz, View.ld_unit_zero (S := S16x2048) hz]

/-- The last point of a row: the accumulator receives the product … -/
theorem scratch_C (c : Dev nD) (i : grid0.Coords) (arg2 : Memref sig .tc .vmem S16x1536 .bf16) (harg2 : arg2.IsWhole) (arg3 : Memref sig .tc .vmem S1536x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .i32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (hc0 : ¬cond0_0 i) (hc1 : cond0_1 i)
    (x0 : Vec F S16x1536 .bf16) (x1 : Vec F S1536x2048 .bf16) (x2 : Vec F S1x2048 .f32) (x3 : Vec F S1x2048 .f32) (x4 : Vec F S1x2048 .f32) (x5 : Vec F S1x2048 .i32) (xs0 : Vec F S16x2048 .f32) :
    sout0_C_0 c i arg2 harg2 arg3 harg3 arg4 harg4 arg5 harg5 arg6 harg6 arg7 harg7 arg8 harg8 arg9 harg9 arg10 harg10 hc0 hc1 x0 x1 x2 x3 x4 x5 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg10.read_unread, View.ld_unit_zero (S := S16x1536) hz,
    View.ld_unit_zero (S := S1536x2048) hz, View.ld_unit_zero (S := S16x2048) hz]

/-- … the new state is computed from the finished accumulator and stored whole … -/
theorem outX_C (c : Dev nD) (i : grid0.Coords) (arg2 : Memref sig .tc .vmem S16x1536 .bf16) (harg2 : arg2.IsWhole) (arg3 : Memref sig .tc .vmem S1536x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .i32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (hc0 : ¬cond0_0 i) (hc1 : cond0_1 i)
    (x0 : Vec F S16x1536 .bf16) (x1 : Vec F S1536x2048 .bf16) (x2 : Vec F S1x2048 .f32) (x3 : Vec F S1x2048 .f32) (x4 : Vec F S1x2048 .f32) (x5 : Vec F S1x2048 .i32) (xs0 : Vec F S16x2048 .f32) :
    out0_C_6 c i arg2 harg2 arg3 harg3 arg4 harg4 arg5 harg5 arg6 harg6 arg7 harg7 arg8 harg8 arg9 harg9 arg10 harg10 hc0 hc1 x0 x1 x2 x3 x4 x5 xs0 = k0_pay4 (k0_pay2 xs0 x0 x1) x2 x3 x4 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread,
    harg10.read_unread, View.readCov_unit_zero (S := S16x2048) _ hz, View.ld_unit_zero (S := S16x1536) hz,
    View.ld_unit_zero (S := S1536x2048) hz, View.ld_unit_zero (S := S16x2048) hz, View.ld_unit_zero (S := S1x2048) hz]

/-- … and so are the new outputs. -/
theorem outY_C (c : Dev nD) (i : grid0.Coords) (arg2 : Memref sig .tc .vmem S16x1536 .bf16) (harg2 : arg2.IsWhole) (arg3 : Memref sig .tc .vmem S1536x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .i32) (harg7 : arg7.IsWhole) (arg8 : Memref sig .tc .vmem S16x2048 .f32) (harg8 : arg8.IsWhole) (arg9 : Memref sig .tc .vmem S16x2048 .f32) (harg9 : arg9.IsWhole) (arg10 : Memref sig .tc .vmem S16x2048 .f32) (harg10 : arg10.IsWhole) (hc0 : ¬cond0_0 i) (hc1 : cond0_1 i)
    (x0 : Vec F S16x1536 .bf16) (x1 : Vec F S1536x2048 .bf16) (x2 : Vec F S1x2048 .f32) (x3 : Vec F S1x2048 .f32) (x4 : Vec F S1x2048 .f32) (x5 : Vec F S1x2048 .i32) (xs0 : Vec F S16x2048 .f32) :
    out0_C_7 c i arg2 harg2 arg3 harg3 arg4 harg4 arg5 harg5 arg6 harg6 arg7 harg7 arg8 harg8 arg9 harg9 arg10 harg10 hc0 hc1 x0 x1 x2 x3 x4 x5 xs0
      = k0_pay3 (k0_pay6 (k0_pay2 xs0 x0 x1) x2 x3 x4 x5) (k0_pay7 (k0_pay2 xs0 x0 x1) x2 x3 x4 x5) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg10.read_unread, View.readCov_unit_zero (S := S16x2048) _ hz, View.ld_unit_zero (S := S16x1536) hz,
    View.ld_unit_zero (S := S1536x2048) hz, View.ld_unit_zero (S := S16x2048) hz, View.ld_unit_zero (S := S1x2048) hz]

end Liquid.Kern

end
-- ==== Proof.LibPlainMatmul.lean ====
/-
  A plain matrix product read at an index.

  For operands `lhs : [A, K]` and `rhs : [K, B]` and the dimension numbers of a plain product (the left operand's axis 1
  contracted with the right operand's axis 0, no batch axes, the result `[A, B]`), the product into a zero accumulator,
  over the extended reals, has at `(a, b)` the value `∑ j, lhs (a, j) * rhs (j, b)`: the contraction index has one
  coordinate, the left index at it is `(a, j)` and the right index `(j, b)`.
-/
import Idealize.ShloMosaic.PureOps.Ideal.Laws
import Idealize.ShloMosaic.Lib.ValueIdx

noncomputable section

open scoped BigOperators

namespace PlainMatmul

open Idealize.ShloMosaic Idealize.ShloMosaic.ValueIdx

/-- The left index on its kept axis 0 is the result index's first coordinate: with no batch axes and axis 0 the only
kept left axis, that axis reads the result index at position 0. -/
theorem lhs_axis0 {A K B : Nat} (D : DotDims ⟨2, ![A, K]⟩ ⟨2, ![K, B]⟩ ⟨2, ![A, B]⟩)
    (hln : D.lhsNonContracting = [0]) (hlb : D.lhsBatch = []) (a : Fin A) (b : Fin B) (k : D.contr.Idx) :
    (D.lhsIdx (ix2 a b) k 0).val = a.val := by
  have hb : (0 : Fin (⟨2, ![A, K]⟩ : Shape).rank) ∉ D.lhsBatch := by rw [hlb]; exact List.not_mem_nil
  have hn : (0 : Fin (⟨2, ![A, K]⟩ : Shape).rank) ∈ D.lhsNonContracting := by rw [hln]; exact List.mem_singleton.mpr rfl
  unfold DotDims.lhsIdx
  rw [dif_neg hb, dif_pos hn]
  simp only [Fin.val_cast]
  have key : ∀ (p q : Nat) (hp : p < (⟨2, ![A, B]⟩ : Shape).rank) (hq : q < (⟨2, ![A, B]⟩ : Shape).rank), p = q →
      ((ix2 a b) ⟨p, hp⟩).val = ((ix2 a b) ⟨q, hq⟩).val := fun p q hp hq h => by subst h; rfl
  exact key _ 0 _ Nat.two_pos (by simp [hlb, hln])

/-- The left index on its contracted axis 1 is the contraction index's one coordinate. -/
theorem lhs_axis1 {A K B : Nat} (D : DotDims ⟨2, ![A, K]⟩ ⟨2, ![K, B]⟩ ⟨2, ![A, B]⟩)
    (hlc : D.lhsContracting = [1]) (a : Fin A) (b : Fin B) (k : D.contr.Idx) :
    (D.lhsIdx (ix2 a b) k 1).val = (k ⟨0, by rw [D.rank_contr, hlc]; exact Nat.one_pos⟩).val :=
  D.lhsIdx_val_of_single hlc (ix2 a b) k

/-- The right index on its contracted axis 0 is the contraction index's one coordinate. -/
theorem rhs_axis0 {A K B : Nat} (D : DotDims ⟨2, ![A, K]⟩ ⟨2, ![K, B]⟩ ⟨2, ![A, B]⟩)
    (hrc : D.rhsContracting = [0]) (a : Fin A) (b : Fin B) (k : D.contr.Idx) :
    (D.rhsIdx (ix2 a b) k 0).val = (k ⟨0, by rw [D.rank_contr, ← D.length_contracting, hrc]; exact Nat.one_pos⟩).val :=
  D.rhsIdx_val_of_single hrc (ix2 a b) k

/-- The right index on its kept axis 1 is the result index's second coordinate: with no batch axes, one kept left axis
and axis 1 the only kept right axis, that axis reads the result index at position 0 + 1 + 0. -/
theorem rhs_axis1 {A K B : Nat} (D : DotDims ⟨2, ![A, K]⟩ ⟨2, ![K, B]⟩ ⟨2, ![A, B]⟩)
    (hln : D.lhsNonContracting = [0]) (hrn : D.rhsNonContracting = [1]) (hlb : D.lhsBatch = []) (hrb : D.rhsBatch = [])
    (a : Fin A) (b : Fin B) (k : D.contr.Idx) :
    (D.rhsIdx (ix2 a b) k 1).val = b.val := by
  have hb : (1 : Fin (⟨2, ![K, B]⟩ : Shape).rank) ∉ D.rhsBatch := by rw [hrb]; exact List.not_mem_nil
  have hn : (1 : Fin (⟨2, ![K, B]⟩ : Shape).rank) ∈ D.rhsNonContracting := by rw [hrn]; exact List.mem_singleton.mpr rfl
  unfold DotDims.rhsIdx
  rw [dif_neg hb, dif_pos hn]
  simp only [Fin.val_cast]
  have key : ∀ (p q : Nat) (hp : p < (⟨2, ![A, B]⟩ : Shape).rank) (hq : q < (⟨2, ![A, B]⟩ : Shape).rank), p = q →
      ((ix2 a b) ⟨p, hp⟩).val = ((ix2 a b) ⟨q, hq⟩).val := fun p q hp hq h => by subst h; rfl
  exact key _ 1 _ Nat.one_lt_two (by simp [hlb, hln, hrn])

/-- One axis is contracted. -/
theorem rank_contr_one {A K B : Nat} (D : DotDims ⟨2, ![A, K]⟩ ⟨2, ![K, B]⟩ ⟨2, ![A, B]⟩)
    (hlc : D.lhsContracting = [1]) : D.contr.rank = 1 := by
  rw [D.rank_contr, hlc]; rfl

/-- The contracted axis has extent `K`: it is the left operand's axis 1. -/
theorem size_contr_K {A K B : Nat} (D : DotDims ⟨2, ![A, K]⟩ ⟨2, ![K, B]⟩ ⟨2, ![A, B]⟩)
    (hlc : D.lhsContracting = [1]) :
    D.contr.size ⟨0, by rw [rank_contr_one D hlc]; exact Nat.one_pos⟩ = K := by
  have hp : 0 < D.lhsContracting.length := by rw [hlc]; exact Nat.one_pos
  refine (D.size_contr 0 hp).trans ?_
  rw [List.getElem_of_eq hlc hp]
  rfl

/-- The plain product into a zero accumulator, at `(a, b)`, is the sum over the contracted axis of the products. -/
theorem matmul_zero_apply {A K B : Nat} {φ₁ φ₂ : FTy} (D : DotDims ⟨2, ![A, K]⟩ ⟨2, ![K, B]⟩ ⟨2, ![A, B]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![A, K]⟩ φ₁) (rhs : FVec Ideal ⟨2, ![K, B]⟩ φ₂)
    (a : Fin A) (b : Fin B) :
    FloatOps.matmul D prec lhs rhs (constant (F := Ideal) ⟨2, ![A, B]⟩ .f32 0x00000000#32) (ix2 a b)
      = ∑ j : Fin K, lhs (ix2 a j) * rhs (ix2 j b) := by
  have hr : D.contr.rank = 1 := rank_contr_one D hlc
  have hs : D.contr.size ⟨0, by omega⟩ = K := size_contr_K D hlc
  rw [Ideal.matmul_constant_zero_apply, ← Equiv.sum_comp (contrEquiv1 D K hr hs).symm]
  refine Finset.sum_congr rfl fun j _ => ?_
  have hk := contrEquiv1_symm_val D K hr hs j
  -- at the contraction position with coordinate `j` the left index is `(a, j)` and the right index `(j, b)`
  have hl : D.lhsIdx (ix2 a b) ((contrEquiv1 D K hr hs).symm j) = ix2 a j := by
    funext x
    apply Fin.ext
    match x with
    | ⟨0, _⟩ => exact lhs_axis0 D hln hlb a b _
    | ⟨1, _⟩ => exact (lhs_axis1 D hlc a b _).trans hk
  have hrr : D.rhsIdx (ix2 a b) ((contrEquiv1 D K hr hs).symm j) = ix2 j b := by
    funext x
    apply Fin.ext
    match x with
    | ⟨0, _⟩ => exact (rhs_axis0 D hrc a b _).trans hk
    | ⟨1, _⟩ => exact rhs_axis1 D hln hrn hlb hrb a b _
  rw [hl, hrr]

end PlainMatmul

end
-- ==== Proof.KPay.lean ====
/-
  The body's arithmetic, entry by entry, over the extended reals.

  At entry `(b, q)` of a block: the accumulate step adds to the accumulator the sum over the 1536 staged columns `j` of
  `lhs (b, j) * rhs (j, q)` (the matrix product into a zero accumulator, and `0 +` nothing); the state update is the
  specification's `stepX` of the unit's state, bias and time constant and the finished accumulator (`0 - x` is `-x`);
  the output is the specification's `actY`: the three masks are 0 or 1 whether the one-bit comparison is widened and
  read signed or read unsigned directly.
-/
import proofs.«415341_j11596411699830_1_alg».proof.Proof.Gen.KernelIdeal.Skeleton
import proofs.«415341_j11596411699830_1_alg».proof.Proof.Spec
import proofs.«415341_j11596411699830_1_alg».proof.Proof.LibPlainMatmul
import Idealize.ShloMosaic.Lib.Pipeline.Value
import Idealize.ShloMosaic.Lib.ValueLayout

noncomputable section

open scoped BigOperators

namespace Liquid.Kern

open Idealize.ShloMosaic Idealize.ShloMosaic.ValueIdx
open Cert.KernelIdeal Cert.KernelIdeal.Gen Liquid

/-- The reset block is zero. -/
theorem pay1_apply (j : S16x2048.Idx) : k0_pay1 (F := Ideal) j = 0 := by
  unfold k0_pay1
  rw [shapeCast_self]
  exact Ideal.ofBits_zero_f32

/-- The accumulate step at `(b, q)`. -/
theorem pay2_apply (acc : FVec Ideal S16x2048 .f32) (x0 : FVec Ideal S16x1536 .bf16) (x1 : FVec Ideal S1536x2048 .bf16)
    (b : Fin 16) (q : Fin 2048) :
    k0_pay2 (F := Ideal) acc x0 x1 (ix2 b q) = acc (ix2 b q) + ∑ j : Fin 1536, x0 (ix2 b j) * x1 (ix2 j q) := by
  unfold k0_pay2
  rw [shapeCast_self, shapeCast_self, shapeCast_self, addf_apply]
  exact congrArg (acc (ix2 b q) + ·)
    (PlainMatmul.matmul_zero_apply dot_S16x1536_S1536x2048_S16x2048_1_0_0_1_n_n rfl rfl rfl rfl rfl rfl none x0 x1 b q)

/-- A one-bit word widened to 32 bits reads the same signed as the bit reads unsigned. -/
theorem toInt_setWidth_bit (w : BitVec 1) : ((w.setWidth 32).toInt : Int) = (w.toNat : Int) := by
  revert w; decide

/-- The kernel's mask (the comparison widened, then converted signed) is the specification's. -/
theorem mask_eq (t k : BitVec 32) :
    (FloatOps.sitofp (F := Ideal) .f32 ((IntOp.cmpi .eq t k).setWidth 32) : EReal) = mask t k := by
  show ((((IntOp.cmpi .eq t k).setWidth 32).toInt : ℝ) : EReal) = (((IntOp.cmpi .eq t k).toNat : ℝ) : EReal)
  rw [toInt_setWidth_bit]
  norm_cast

/-- The state update at `(b, q)`. -/
theorem pay4_apply (acc : FVec Ideal S16x2048 .f32) (xr br tr : FVec Ideal S1x2048 .f32) (b : Fin 16) (q : Fin 2048) :
    k0_pay4 (F := Ideal) acc xr br tr (ix2 b q)
      = stepX (xr (ix2 (0 : Fin 1) q)) (br (ix2 (0 : Fin 1) q)) (tr (ix2 (0 : Fin 1) q)) (acc (ix2 b q)) := by
  unfold k0_pay4 stepX
  simp only [shapeCast_self, addf_apply, mulf_apply, divf_apply, subf_apply, broadcast_apply, broadcastTo_1b_ab_apply]
  rw [show (Scalar.ofBits (F := Ideal) .f32 0x00000000#32 : EReal) = 0 from Ideal.ofBits_zero_f32, zero_sub]
  rfl

/-- The new output at `(b, q)` from the new state there. -/
theorem pay3_apply (acc : FVec Ideal S16x2048 .f32) (xr br tr : FVec Ideal S1x2048 .f32) (ar : IVec S1x2048 32)
    (b : Fin 16) (q : Fin 2048) :
    k0_pay3 (F := Ideal) (k0_pay6 acc xr br tr ar) (k0_pay7 acc xr br tr ar) (ix2 b q)
      = actY (ar (ix2 (0 : Fin 1) q)) (k0_pay4 (F := Ideal) acc xr br tr (ix2 b q)) := by
  unfold k0_pay3 k0_pay6 k0_pay7 k0_pay5 actY
  simp only [shapeCast_self, addf_apply, mulf_apply, maximumf_apply, broadcast_apply, broadcastTo_1b_ab_apply]
  rw [show (Scalar.ofBits (F := Ideal) .f32 0x00000000#32 : EReal) = 0 from Ideal.ofBits_zero_f32]
  rw [← mask_eq, ← mask_eq, ← mask_eq]
  rfl

end Liquid.Kern

end
-- ==== Proof.LibPointScatter.lean ====
/-
  A scatter-add of scalars into a matrix at pairs of coordinates, read at an index.

  A matrix `x : [M, H]` receives updates `u : [E]`. Update `e` goes to the entry whose row and column are the two
  components of row `e` of the index array `idx : [E, 2]`, each component read signed and not clamped; an update one of
  whose components leaves the matrix is dropped. Over the extended reals entry `(c, h)` of the result is therefore
  `x (c, h)` plus the sum of the updates whose pair of components is `(c, h)`.
-/
import Idealize.ShloMosaic.PureOps.Ideal
import Idealize.ShloMosaic.Lib.ValueIdx

noncomputable section

open scoped BigOperators

namespace PointScatter

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {A : Type*} [AddCommMonoid A] {n : Nat} (f : (⟨1, ![n]⟩ : Shape).Idx → A) :
    ∑ j, f j = ∑ a : Fin n, f (ix1 a) := by
  rw [← Equiv.sum_comp (idxEquiv1 (n := n)).symm f]
  rfl

/-! ## The scatter-add at pairs of coordinates -/

/-- The dimension numbers of `x.at[i0, i1].add(u)` with the two index vectors stacked as the columns of `idx`:
    operand `[M, H]`, scatter indices `[E, 2]`, updates `[E]`; no window, both operand axes addressed by the index. -/
abbrev scatterDims (M H E : Nat) (wf : ScatterDims.WF ⟨2, ![M, H]⟩ ⟨2, ![E, 2]⟩ ⟨1, ![E]⟩ [] [0, 1] [0, 1] 1) :
    ScatterDims ⟨2, ![M, H]⟩ ⟨2, ![E, 2]⟩ ⟨1, ![E]⟩ where
  updateWindowDims := []
  insertedWindowDims := [0, 1]
  scatterDimsToOperandDims := [0, 1]
  indexVectorDim := 1
  wf := wf

variable {M H E w : Nat} (wf : ScatterDims.WF ⟨2, ![M, H]⟩ ⟨2, ![E, 2]⟩ ⟨1, ![E]⟩ [] [0, 1] [0, 1] 1)
  (idx : IVec ⟨2, ![E, 2]⟩ w) (e : Fin E)

/-- Update `e` starts at the row that component 0 of its index names, read signed and not clamped … -/
theorem start_row : (scatterDims M H E wf).start (ix1 e) idx 0 = (idx (ix2 e 0)).toInt := by
  unfold ScatterDims.start
  have hm : (0 : Fin 2) ∈ (scatterDims M H E wf).scatterDimsToOperandDims := by
    show (0 : Fin 2) ∈ [(0 : Fin 2), 1]; decide
  rw [dif_pos hm]
  have hsi : (scatterDims M H E wf).siIdx (ix1 e) ⟨List.idxOf (0 : Fin 2) (scatterDims M H E wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and at the column that component 1 names. -/
theorem start_col : (scatterDims M H E wf).start (ix1 e) idx 1 = (idx (ix2 e 1)).toInt := by
  unfold ScatterDims.start
  have hm : (1 : Fin 2) ∈ (scatterDims M H E wf).scatterDimsToOperandDims := by
    show (1 : Fin 2) ∈ [(0 : Fin 2), 1]; decide
  rw [dif_pos hm]
  have hsi : (scatterDims M H E wf).siIdx (ix1 e) ⟨List.idxOf (1 : Fin 2) (scatterDims M H E wf).scatterDimsToOperandDims,
      List.idxOf_lt_length_iff.2 hm⟩ = ix2 e 1 := by
    funext b; refine Fin.ext ?_
    match b with
    | ⟨0, _⟩ => rfl
    | ⟨1, _⟩ => rfl
  rw [hsi]

/-- There is no window: the window coordinate is 0 on both axes. -/
theorem window_zero (a : Fin 2) : (scatterDims M H E wf).window (ix1 e) a = 0 := by
  unfold ScatterDims.window
  rw [dif_neg (show a ∉ (scatterDims M H E wf).sKept from by
    show a ∉ (List.finRange 2).filter (fun a => a ∉ [(0 : Fin 2), 1])
    revert a; decide)]

/-- Update `e` lands on `(c, h)` exactly when the two components of its index, read signed, are `c` and `h`. -/
theorem resultIdx?_eq_some_iff (c : Fin M) (h : Fin H) :
    (scatterDims M H E wf).resultIdx? (ix1 e) idx = some (ix2 c h)
      ↔ (idx (ix2 e 0)).toInt = (c.val : Int) ∧ (idx (ix2 e 1)).toInt = (h.val : Int) := by
  unfold ScatterDims.resultIdx?
  have hc := c.isLt
  have hh := h.isLt
  split
  · rename_i hin
    rw [Option.some.injEq]
    constructor
    · intro hf
      have h0 := congrArg (fun f : (⟨2, ![M, H]⟩ : Shape).Idx => (f 0).val) hf
      have h1 := congrArg (fun f : (⟨2, ![M, H]⟩ : Shape).Idx => (f 1).val) hf
      have g0 := (hin 0).1
      have g1 := (hin 1).1
      simp only [start_row, start_col, window_zero] at h0 h1 g0 g1
      have e0 : ((idx (ix2 e 0)).toInt + ((0 : Nat) : Int)).toNat = c.val := h0
      have e1 : ((idx (ix2 e 1)).toInt + ((0 : Nat) : Int)).toNat = h.val := h1
      constructor <;> omega
    · rintro ⟨h0, h1⟩
      funext a
      refine Fin.ext ?_
      match a with
      | ⟨0, _⟩ =>
        show ((scatterDims M H E wf).start (ix1 e) idx 0 + ((scatterDims M H E wf).window (ix1 e) 0 : Nat)).toNat = c.val
        rw [start_row, window_zero, h0]; omega
      | ⟨1, _⟩ =>
        show ((scatterDims M H E wf).start (ix1 e) idx 1 + ((scatterDims M H E wf).window (ix1 e) 1 : Nat)).toNat = h.val
        rw [start_col, window_zero, h1]; omega
  · rename_i hout
    constructor
    · intro hf; exact absurd hf (by simp)
    · rintro ⟨h0, h1⟩
      refine absurd (fun a => ?_) hout
      match a with
      | ⟨0, _⟩ =>
        show 0 ≤ (scatterDims M H E wf).start (ix1 e) idx 0 + ((scatterDims M H E wf).window (ix1 e) 0 : Nat)
          ∧ (scatterDims M H E wf).start (ix1 e) idx 0 + ((scatterDims M H E wf).window (ix1 e) 0 : Nat) < (M : Int)
        rw [start_row, window_zero, h0]; omega
      | ⟨1, _⟩ =>
        show 0 ≤ (scatterDims M H E wf).start (ix1 e) idx 1 + ((scatterDims M H E wf).window (ix1 e) 1 : Nat)
          ∧ (scatterDims M H E wf).start (ix1 e) idx 1 + ((scatterDims M H E wf).window (ix1 e) 1 : Nat) < (H : Int)
        rw [start_col, window_zero, h1]; omega

/-- Entry `(c, h)` of the scatter-add over the extended reals: the operand's entry plus the sum of the updates whose
    index pair is `(c, h)`. -/
theorem scatterAdd_apply {φ : FTy} (x : FVec Ideal ⟨2, ![M, H]⟩ φ) (upd : FVec Ideal ⟨1, ![E]⟩ φ) (c : Fin M) (h : Fin H) :
    Host.scatterAdd (F := Ideal) (scatterDims M H E wf) x idx upd (ix2 c h)
      = x (ix2 c h) + ∑ e ∈ Finset.univ.filter (fun e : Fin E =>
          (idx (ix2 e 0)).toInt = (c.val : Int) ∧ (idx (ix2 e 1)).toInt = (h.val : Int)), upd (ix1 e) := by
  unfold Host.scatterAdd
  rw [Ideal.hostScatterAdd_def]
  unfold Ideal.hostScatterAdd
  congr 1
  rw [Finset.sum_filter, sum_idx1, Finset.sum_filter]
  refine Finset.sum_congr rfl fun e _ => ?_
  simp only [resultIdx?_eq_some_iff]

end PointScatter

end
-- ==== Proof.KHost.lean ====
/-
  What the kernel's launch finds in the arrays it stages.

  Before the launch the host builds, from the arguments: the matrix `comb : [16, 9216]` (the inputs followed by the
  previous outputs, the same for every batch row), the dense matrix `Mt : [9216, 8192]` whose entry `(c, h)` is the total
  weight of the edges with source `c` and target `h` (a scatter-add of the weights into zeros at the pairs
  (source, target), negative indices wrapped first), and the row forms `[1, 8192]` of the state, the bias, the time
  constants and the activation types. With the indices in range the wrap does nothing, and entry `(c, h)` of `Mt` is the
  sum of `w k` over the edges `k` with `cols k = c` and `rows k = h`.
-/
import proofs.«415341_j11596411699830_1_alg».proof.Proof.Gen.KernelIdeal.Frame
import proofs.«415341_j11596411699830_1_alg».proof.Proof.Spec
import proofs.«415341_j11596411699830_1_alg».proof.Proof.LibPointScatter
import Idealize.ShloMosaic.Lib.StableHlo.Run
import Idealize.ShloMosaic.Lib.Pipeline.Value
import Idealize.ShloMosaic.Lib.Affine

noncomputable section

open scoped BigOperators

namespace Liquid.Kern

open Idealize.ShloMosaic Idealize.ShloMosaic.TcCoe Idealize.SL.Sem Idealize.ShloMosaic.StableHlo
open Idealize.ShloMosaic.ValueIdx
open Cert.KernelIdeal Cert.KernelIdeal.Gen Liquid

variable (m : (ℓ : Loc nD τ sig) → Buf (Elt Ideal) ℓ)

/-- The argument arrays on core `c`, by role. -/
abbrev aInp (c : Dev nD) : FVec Ideal SIn .f32 := m ((c : Thread nD τ).loc main_arg0)
abbrev aX (c : Dev nD) : FVec Ideal SH .f32 := m ((c : Thread nD τ).loc main_arg1)
abbrev aY (c : Dev nD) : FVec Ideal SH .f32 := m ((c : Thread nD τ).loc main_arg2)
abbrev aTau (c : Dev nD) : FVec Ideal SH .f32 := m ((c : Thread nD τ).loc main_arg3)
abbrev aBias (c : Dev nD) : FVec Ideal SH .f32 := m ((c : Thread nD τ).loc main_arg4)
abbrev aW (c : Dev nD) : FVec Ideal SE .f32 := m ((c : Thread nD τ).loc main_arg5)
abbrev aRows (c : Dev nD) : IVec SE 32 := m ((c : Thread nD τ).loc main_arg6)
abbrev aCols (c : Dev nD) : IVec SE 32 := m ((c : Thread nD τ).loc main_arg7)
abbrev aAct (c : Dev nD) : IVec SH 32 := m ((c : Thread nD τ).loc main_arg8)

/-- An index vector with its negative entries wrapped by `n`. -/
abbrev wrapped (v : IVec SE 32) (n : BitVec 32) : IVec SE 32 :=
  select (cmpi .slt v (broadcastInDim S3774873 ![] bcast_S_S3774873 (constantI S_ 32 0#32)))
    (addi v (broadcastInDim S3774873 ![] bcast_S_S3774873 (constantI S_ 32 n))) v

/-- The staged `comb`, as the host's operations build it. -/
theorem V_comb (c : Dev nD) : (V m c main_v3 : S16x9216.Idx → EReal)
    = truncf .bf16 (concatenate S16x9216 1 [⟨S16x1024, aInp m c⟩,
        ⟨S16x8192, broadcastInDim S16x8192 ![0, 1] bcast_S1x8192_S16x8192_0_1
          (broadcastInDim S1x8192 ![1] bcast_S8192_S1x8192_1 (aY m c))⟩]
        concatenates_S16x1024_S16x8192_S16x9216_d1) bitsLt_bf16_f32 := by
  show StableHlo.after hostOps0 (fun b => m (c, b)) (Proc.devRef .tc main_v3) = _
  after_results

set_option maxHeartbeats 4000000 in
/-- The staged `Mt`, as the host's operations build it. -/
theorem V_mt (c : Dev nD) : (V m c main_v19 : S9216x8192.Idx → EReal)
    = truncf .bf16 (Host.scatterAdd (F := Ideal) scatter_S9216x8192_S3774873x2_S3774873_n_01_01_1
        (broadcastInDim S9216x8192 ![] bcast_S_S9216x8192 (constant (F := Ideal) S_ .f32 0x00000000#32))
        (concatenate S3774873x2 1 [⟨S3774873x1, broadcastInDim S3774873x1 ![0] bcast_S3774873_S3774873x1_0 (wrapped (aCols m c) 9216#32)⟩,
          ⟨S3774873x1, broadcastInDim S3774873x1 ![0] bcast_S3774873_S3774873x1_0 (wrapped (aRows m c) 8192#32)⟩]
          concatenates_S3774873x1_S3774873x1_S3774873x2_d1)
        (aW m c)) bitsLt_bf16_f32 := by
  show StableHlo.after hostOps0 (fun b => m (c, b)) (Proc.devRef .tc main_v19) = _
  after_results

/-- The staged row forms of the state, the bias, the time constants and the activation types. -/
theorem V_x (c : Dev nD) : (V m c main_v20 : S1x8192.Idx → EReal) = shapeCast S1x8192 (aX m c) shapeCasts_S8192_S1x8192 := by
  show StableHlo.after hostOps0 (fun b => m (c, b)) (Proc.devRef .tc main_v20) = _
  after_results
  rfl
theorem V_bias (c : Dev nD) : (V m c main_v21 : S1x8192.Idx → EReal) = shapeCast S1x8192 (aBias m c) shapeCasts_S8192_S1x8192 := by
  show StableHlo.after hostOps0 (fun b => m (c, b)) (Proc.devRef .tc main_v21) = _
  after_results
  rfl
theorem V_tau (c : Dev nD) : (V m c main_v22 : S1x8192.Idx → EReal) = shapeCast S1x8192 (aTau m c) shapeCasts_S8192_S1x8192 := by
  show StableHlo.after hostOps0 (fun b => m (c, b)) (Proc.devRef .tc main_v22) = _
  after_results
  rfl
theorem V_act (c : Dev nD) : (V m c main_v23 : S1x8192.Idx → BitVec 32) = shapeCast S1x8192 (aAct m c) shapeCasts_S8192_S1x8192 := by
  show StableHlo.after hostOps0 (fun b => m (c, b)) (Proc.devRef .tc main_v23) = _
  after_results
  rfl

end Liquid.Kern

end
-- ==== Proof.KBlocks.lean ====
/-
  The staged blocks, read back as entries of the arrays.

  The grid has 4 rows of 6 points; point `t` is point `t % 6` of row `t / 6`. At point `t` the block of `comb` is its
  columns `1536 (t % 6) …`, the block of `Mt` its rows `1536 (t % 6) …` and columns `2048 (t / 6) …`, and the blocks of
  the four row forms, like those of the two results, are the columns `2048 (t / 6) …`.
-/
import proofs.«415341_j11596411699830_1_alg».proof.Proof.KHost

noncomputable section

namespace Liquid.Kern

open Idealize.ShloMosaic Idealize.ShloMosaic.TcCoe Idealize.SL.Sem
open Idealize.ShloMosaic.ValueIdx
open Cert.KernelIdeal Cert.KernelIdeal.Gen Liquid

variable (m : (ℓ : Loc nD τ sig) → Buf (Elt Ideal) ℓ)

/-! ## The windows' block indices at every point, decided once over the grid -/

theorem idx_w0_0 : ∀ t : Fin cfg0.N, win0_0.index t (0 : Fin 2) = 0 :=
  (by decide +kernel : ∀ t : Fin grid0.N, win0_0.index t (0 : Fin 2) = 0)
theorem idx_w0_1 : ∀ t : Fin cfg0.N, win0_0.index t (1 : Fin 2) = t.val % 6 :=
  (by decide +kernel : ∀ t : Fin grid0.N, win0_0.index t (1 : Fin 2) = t.val % 6)
theorem idx_w1_0 : ∀ t : Fin cfg0.N, win0_1.index t (0 : Fin 2) = t.val % 6 :=
  (by decide +kernel : ∀ t : Fin grid0.N, win0_1.index t (0 : Fin 2) = t.val % 6)
theorem idx_w1_1 : ∀ t : Fin cfg0.N, win0_1.index t (1 : Fin 2) = t.val / 6 :=
  (by decide +kernel : ∀ t : Fin grid0.N, win0_1.index t (1 : Fin 2) = t.val / 6)
theorem idx_w2_0 : ∀ t : Fin cfg0.N, win0_2.index t (0 : Fin 2) = 0 :=
  (by decide +kernel : ∀ t : Fin grid0.N, win0_2.index t (0 : Fin 2) = 0)
theorem idx_w2_1 : ∀ t : Fin cfg0.N, win0_2.index t (1 : Fin 2) = t.val / 6 :=
  (by decide +kernel : ∀ t : Fin grid0.N, win0_2.index t (1 : Fin 2) = t.val / 6)
theorem idx_w3_0 : ∀ t : Fin cfg0.N, win0_3.index t (0 : Fin 2) = 0 :=
  (by decide +kernel : ∀ t : Fin grid0.N, win0_3.index t (0 : Fin 2) = 0)
theorem idx_w3_1 : ∀ t : Fin cfg0.N, win0_3.index t (1 : Fin 2) = t.val / 6 :=
  (by decide +kernel : ∀ t : Fin grid0.N, win0_3.index t (1 : Fin 2) = t.val / 6)
theorem idx_w4_0 : ∀ t : Fin cfg0.N, win0_4.index t (0 : Fin 2) = 0 :=
  (by decide +kernel : ∀ t : Fin grid0.N, win0_4.index t (0 : Fin 2) = 0)
theorem idx_w4_1 : ∀ t : Fin cfg0.N, win0_4.index t (1 : Fin 2) = t.val / 6 :=
  (by decide +kernel : ∀ t : Fin grid0.N, win0_4.index t (1 : Fin 2) = t.val / 6)
theorem idx_w5_0 : ∀ t : Fin cfg0.N, win0_5.index t (0 : Fin 2) = 0 :=
  (by decide +kernel : ∀ t : Fin grid0.N, win0_5.index t (0 : Fin 2) = 0)
theorem idx_w5_1 : ∀ t : Fin cfg0.N, win0_5.index t (1 : Fin 2) = t.val / 6 :=
  (by decide +kernel : ∀ t : Fin grid0.N, win0_5.index t (1 : Fin 2) = t.val / 6)
theorem idx_w6_0 : ∀ t : Fin cfg0.N, win0_6.index t (0 : Fin 2) = 0 :=
  (by decide +kernel : ∀ t : Fin grid0.N, win0_6.index t (0 : Fin 2) = 0)
theorem idx_w6_1 : ∀ t : Fin cfg0.N, win0_6.index t (1 : Fin 2) = t.val / 6 :=
  (by decide +kernel : ∀ t : Fin grid0.N, win0_6.index t (1 : Fin 2) = t.val / 6)
theorem idx_w7_0 : ∀ t : Fin cfg0.N, win0_7.index t (0 : Fin 2) = 0 :=
  (by decide +kernel : ∀ t : Fin grid0.N, win0_7.index t (0 : Fin 2) = 0)
theorem idx_w7_1 : ∀ t : Fin cfg0.N, win0_7.index t (1 : Fin 2) = t.val / 6 :=
  (by decide +kernel : ∀ t : Fin grid0.N, win0_7.index t (1 : Fin 2) = t.val / 6)

/-! ## The blocks -/

/-- Entry `(p, q)` of the block of `comb` at point `t`, for any contents of the array. -/
theorem lhs_blk_of (t : Fin cfg0.N) (A : S16x9216.Idx → EReal) (p : Fin 16) (q : Fin 1536) (P : Fin 16) (Q : Fin 9216)
    (hP : P.val = p.val) (hQ : Q.val = 1536 * (t.val % 6) + q.val) :
    (((cfg0.win 0).blk t).view.read (Elt Ideal) A : S16x1536.Idx → EReal) (ix2 p q) = A (ix2 P Q) := by
  rw [View.read_apply]
  refine congrArg A (funext fun a => Fin.ext ?_)
  match a with
  | ⟨0, _⟩ => show win0_0.index t 0 * 16 + 1 * p.val = P.val; rw [idx_w0_0 t, hP]; omega
  | ⟨1, _⟩ => show win0_0.index t 1 * 1536 + 1 * q.val = Q.val; rw [idx_w0_1 t, hQ]; omega
theorem lhs_blk (c : Dev nD) (t : Fin cfg0.N) (p : Fin 16) (q : Fin 1536) (P : Fin 16) (Q : Fin 9216)
    (hP : P.val = p.val) (hQ : Q.val = 1536 * (t.val % 6) + q.val) :
    (iblk m c 0 t : S16x1536.Idx → EReal) (ix2 p q) = (V m c main_v3 : S16x9216.Idx → EReal) (ix2 P Q) :=
  lhs_blk_of t (V m c main_v3) p q P Q hP hQ

/-- Entry `(p, q)` of the block of `Mt` at point `t`. -/
theorem rhs_blk_of (t : Fin cfg0.N) (A : S9216x8192.Idx → EReal) (p : Fin 1536) (q : Fin 2048) (P : Fin 9216) (Q : Fin 8192)
    (hP : P.val = 1536 * (t.val % 6) + p.val) (hQ : Q.val = 2048 * (t.val / 6) + q.val) :
    (((cfg0.win 1).blk t).view.read (Elt Ideal) A : S1536x2048.Idx → EReal) (ix2 p q) = A (ix2 P Q) := by
  rw [View.read_apply]
  refine congrArg A (funext fun a => Fin.ext ?_)
  match a with
  | ⟨0, _⟩ => show win0_1.index t 0 * 1536 + 1 * p.val = P.val; rw [idx_w1_0 t, hP]; omega
  | ⟨1, _⟩ => show win0_1.index t 1 * 2048 + 1 * q.val = Q.val; rw [idx_w1_1 t, hQ]; omega
theorem rhs_blk (c : Dev nD) (t : Fin cfg0.N) (p : Fin 1536) (q : Fin 2048) (P : Fin 9216) (Q : Fin 8192)
    (hP : P.val = 1536 * (t.val % 6) + p.val) (hQ : Q.val = 2048 * (t.val / 6) + q.val) :
    (iblk m c 1 t : S1536x2048.Idx → EReal) (ix2 p q) = (V m c main_v19 : S9216x8192.Idx → EReal) (ix2 P Q) :=
  rhs_blk_of t (V m c main_v19) p q P Q hP hQ

/-- Entry `(0, q)` of the block of the state row at point `t`. -/
theorem x_blk_of (t : Fin cfg0.N) (A : S1x8192.Idx → EReal) (p : Fin 1) (q : Fin 2048) (P : Fin 1) (Q : Fin 8192)
    (hP : P.val = p.val) (hQ : Q.val = 2048 * (t.val / 6) + q.val) :
    (((cfg0.win 2).blk t).view.read (Elt Ideal) A : S1x2048.Idx → EReal) (ix2 p q) = A (ix2 P Q) := by
  rw [View.read_apply]
  refine congrArg A (funext fun a => Fin.ext ?_)
  match a with
  | ⟨0, _⟩ => show win0_2.index t 0 * 1 + 1 * p.val = P.val; rw [idx_w2_0 t, hP]; omega
  | ⟨1, _⟩ => show win0_2.index t 1 * 2048 + 1 * q.val = Q.val; rw [idx_w2_1 t, hQ]; omega
theorem x_blk (c : Dev nD) (t : Fin cfg0.N) (p : Fin 1) (q : Fin 2048) (P : Fin 1) (Q : Fin 8192)
    (hP : P.val = p.val) (hQ : Q.val = 2048 * (t.val / 6) + q.val) :
    (iblk m c 2 t : S1x2048.Idx → EReal) (ix2 p q) = (V m c main_v20 : S1x8192.Idx → EReal) (ix2 P Q) :=
  x_blk_of t (V m c main_v20) p q P Q hP hQ

/-- The same for the bias row. -/
theorem bias_blk_of (t : Fin cfg0.N) (A : S1x8192.Idx → EReal) (p : Fin 1) (q : Fin 2048) (P : Fin 1) (Q : Fin 8192)
    (hP : P.val = p.val) (hQ : Q.val = 2048 * (t.val / 6) + q.val) :
    (((cfg0.win 3).blk t).view.read (Elt Ideal) A : S1x2048.Idx → EReal) (ix2 p q) = A (ix2 P Q) := by
  rw [View.read_apply]
  refine congrArg A (funext fun a => Fin.ext ?_)
  match a with
  | ⟨0, _⟩ => show win0_3.index t 0 * 1 + 1 * p.val = P.val; rw [idx_w3_0 t, hP]; omega
  | ⟨1, _⟩ => show win0_3.index t 1 * 2048 + 1 * q.val = Q.val; rw [idx_w3_1 t, hQ]; omega
theorem bias_blk (c : Dev nD) (t : Fin cfg0.N) (p : Fin 1) (q : Fin 2048) (P : Fin 1) (Q : Fin 8192)
    (hP : P.val = p.val) (hQ : Q.val = 2048 * (t.val / 6) + q.val) :
    (iblk m c 3 t : S1x2048.Idx → EReal) (ix2 p q) = (V m c main_v21 : S1x8192.Idx → EReal) (ix2 P Q) :=
  bias_blk_of t (V m c main_v21) p q P Q hP hQ

/-- The same for the row of time constants. -/
theorem tau_blk_of (t : Fin cfg0.N) (A : S1x8192.Idx → EReal) (p : Fin 1) (q : Fin 2048) (P : Fin 1) (Q : Fin 8192)
    (hP : P.val = p.val) (hQ : Q.val = 2048 * (t.val / 6) + q.val) :
    (((cfg0.win 4).blk t).view.read (Elt Ideal) A : S1x2048.Idx → EReal) (ix2 p q) = A (ix2 P Q) := by
  rw [View.read_apply]
  refine congrArg A (funext fun a => Fin.ext ?_)
  match a with
  | ⟨0, _⟩ => show win0_4.index t 0 * 1 + 1 * p.val = P.val; rw [idx_w4_0 t, hP]; omega
  | ⟨1, _⟩ => show win0_4.index t 1 * 2048 + 1 * q.val = Q.val; rw [idx_w4_1 t, hQ]; omega
theorem tau_blk (c : Dev nD) (t : Fin cfg0.N) (p : Fin 1) (q : Fin 2048) (P : Fin 1) (Q : Fin 8192)
    (hP : P.val = p.val) (hQ : Q.val = 2048 * (t.val / 6) + q.val) :
    (iblk m c 4 t : S1x2048.Idx → EReal) (ix2 p q) = (V m c main_v22 : S1x8192.Idx → EReal) (ix2 P Q) :=
  tau_blk_of t (V m c main_v22) p q P Q hP hQ

/-- The same for the row of activation types. -/
theorem act_blk_of (t : Fin cfg0.N) (A : S1x8192.Idx → BitVec 32) (p : Fin 1) (q : Fin 2048) (P : Fin 1) (Q : Fin 8192)
    (hP : P.val = p.val) (hQ : Q.val = 2048 * (t.val / 6) + q.val) :
    (((cfg0.win 5).blk t).view.read (Elt Ideal) A : S1x2048.Idx → BitVec 32) (ix2 p q) = A (ix2 P Q) := by
  rw [View.read_apply]
  refine congrArg A (funext fun a => Fin.ext ?_)
  match a with
  | ⟨0, _⟩ => show win0_5.index t 0 * 1 + 1 * p.val = P.val; rw [idx_w5_0 t, hP]; omega
  | ⟨1, _⟩ => show win0_5.index t 1 * 2048 + 1 * q.val = Q.val; rw [idx_w5_1 t, hQ]; omega
theorem act_blk (c : Dev nD) (t : Fin cfg0.N) (p : Fin 1) (q : Fin 2048) (P : Fin 1) (Q : Fin 8192)
    (hP : P.val = p.val) (hQ : Q.val = 2048 * (t.val / 6) + q.val) :
    (iblk m c 5 t : S1x2048.Idx → BitVec 32) (ix2 p q) = (V m c main_v23 : S1x8192.Idx → BitVec 32) (ix2 P Q) :=
  act_blk_of t (V m c main_v23) p q P Q hP hQ

/-- Entry `(p, q)` of the block of the new-state array at point `t`, for any contents of the array. -/
theorem xout_blk_of (t : Fin cfg0.N) (A : S16x8192.Idx → EReal) (p : Fin 16) (q : Fin 2048) (Q : Fin 8192)
    (hQ : Q.val = 2048 * (t.val / 6) + q.val) :
    (((cfg0.win 6).blk t).view.read (Elt Ideal) A : S16x2048.Idx → EReal) (ix2 p q) = A (ix2 p Q) := by
  rw [View.read_apply]
  refine congrArg A (funext fun a => Fin.ext ?_)
  match a with
  | ⟨0, _⟩ => show win0_6.index t 0 * 16 + 1 * p.val = p.val; rw [idx_w6_0 t]; omega
  | ⟨1, _⟩ => show win0_6.index t 1 * 2048 + 1 * q.val = Q.val; rw [idx_w6_1 t, hQ]; omega

/-- An entry of the result array is in point `t`'s block of window 6 iff its column is among the block's 2048. -/
theorem mem_blk6 (t : Fin cfg0.N) (i : S16x8192.Idx) :
    i ∈ ((cfg0.win 6).blk t).view.set ↔ ∀ a : Fin 2, win0_6.index t a * S16x2048.size a ≤ (i a).val
      ∧ (i a).val < win0_6.index t a * S16x2048.size a + S16x2048.size a := by
  show i ∈ ((View.whole main_v24_0).slice (win0_6.rect t)).set ↔ _
  rw [View.set_slice_whole, Rect.mem_set_unit]
  exact Iff.rfl

/-- The same for the array of new outputs. -/
theorem yout_blk_of (t : Fin cfg0.N) (A : S16x8192.Idx → EReal) (p : Fin 16) (q : Fin 2048) (Q : Fin 8192)
    (hQ : Q.val = 2048 * (t.val / 6) + q.val) :
    (((cfg0.win 7).blk t).view.read (Elt Ideal) A : S16x2048.Idx → EReal) (ix2 p q) = A (ix2 p Q) := by
  rw [View.read_apply]
  refine congrArg A (funext fun a => Fin.ext ?_)
  match a with
  | ⟨0, _⟩ => show win0_7.index t 0 * 16 + 1 * p.val = p.val; rw [idx_w7_0 t]; omega
  | ⟨1, _⟩ => show win0_7.index t 1 * 2048 + 1 * q.val = Q.val; rw [idx_w7_1 t, hQ]; omega

/-- An entry of the result array is in point `t`'s block of window 7 iff its column is among the block's 2048. -/
theorem mem_blk7 (t : Fin cfg0.N) (i : S16x8192.Idx) :
    i ∈ ((cfg0.win 7).blk t).view.set ↔ ∀ a : Fin 2, win0_7.index t a * S16x2048.size a ≤ (i a).val
      ∧ (i a).val < win0_7.index t a * S16x2048.size a + S16x2048.size a := by
  show i ∈ ((View.whole main_v24_1).slice (win0_7.rect t)).set ↔ _
  rw [View.set_slice_whole, Rect.mem_set_unit]
  exact Iff.rfl

end Liquid.Kern

end
-- ==== Proof.KRead.lean ====
/-
  The staged arrays read at an index.

  Entry `(b, c)` of the staged `comb` is the specification's; the row forms at `(0, h)` are the unit's state, bias, time
  constant and activation type; and, with every edge's source and target in range (so that wrapping negative indices
  does nothing), entry `(c, h)` of the staged `Mt` is the total weight of the edges from `c` into `h`.
-/
import proofs.«415341_j11596411699830_1_alg».proof.Proof.KHost
import Idealize.ShloMosaic.Lib.ValueLayout
import Idealize.ShloMosaic.PureOps.Ideal.Laws

noncomputable section

open scoped BigOperators

namespace Liquid.Kern

open Idealize.ShloMosaic Idealize.ShloMosaic.TcCoe Idealize.SL.Sem Idealize.ShloMosaic.StableHlo
open Idealize.ShloMosaic.ValueIdx
open Cert.KernelIdeal Cert.KernelIdeal.Gen Liquid

variable (m : (ℓ : Loc nD τ sig) → Buf (Elt Ideal) ℓ)

/-! ## The staged arrays read at an index -/

/-- Entry `(b, cc)` of the staged `comb` is the specification's. -/
theorem comb_read (c : Dev nD) (b : Fin 16) (cc : Fin 9216) :
    (V m c main_v3 : S16x9216.Idx → EReal) (ix2 b cc) = comb (aInp m c) (aY m c) b cc := by
  rw [V_comb, truncf_apply]
  unfold comb
  split
  · next h =>
    exact concatenate_pair_apply_left _ _ _ concatenates_S16x1024_S16x8192_S16x9216_d1 (ix2 b cc) rfl (ix2 b ⟨cc.val, h⟩)
      (fun a => match a with | ⟨0, _⟩ => rfl | ⟨1, _⟩ => rfl)
  · next h =>
    have hlt : cc.val - 1024 < 8192 := by have := cc.isLt; omega
    refine (concatenate_pair_apply_right _ _ _ concatenates_S16x1024_S16x8192_S16x9216_d1 (ix2 b cc) rfl rfl
      (ix2 b ⟨cc.val - 1024, hlt⟩) (fun a ha => match a, ha with | ⟨0, _⟩, _ => rfl | ⟨1, _⟩, ha => absurd rfl ha)
      (by show (cc.val - 1024) + 1024 = cc.val; omega)).trans ?_
    refine (broadcastInDim_apply _ bcast_S1x8192_S16x8192_0_1 _ (ix2 b ⟨cc.val - 1024, hlt⟩)
      (ix2 (0 : Fin 1) ⟨cc.val - 1024, hlt⟩) (fun a => match a with
      | ⟨0, _⟩ => by show 0 = if (1 : Nat) = 1 then 0 else b.val; rw [if_pos rfl]
      | ⟨1, _⟩ => by show cc.val - 1024 = if (8192 : Nat) = 1 then 0 else cc.val - 1024; rw [if_neg (by decide)])).trans ?_
    exact broadcastInDim_apply _ bcast_S8192_S1x8192_1 _ (ix2 (0 : Fin 1) ⟨cc.val - 1024, hlt⟩) (ix1 ⟨cc.val - 1024, hlt⟩)
      (fun a => match a with
      | ⟨0, _⟩ => by show cc.val - 1024 = if (8192 : Nat) = 1 then 0 else cc.val - 1024; rw [if_neg (by decide)])

/-- The row forms read at `(0, h)`: the state, the bias, the time constant and the activation type of unit `h`. -/
theorem x_read (c : Dev nD) (h : Fin 8192) : (V m c main_v20 : S1x8192.Idx → EReal) (ix2 (0 : Fin 1) h) = aX m c (ix1 h) := by
  rw [V_x]; exact shapeCast_a_1a_apply _ _ 0 h
theorem bias_read (c : Dev nD) (h : Fin 8192) : (V m c main_v21 : S1x8192.Idx → EReal) (ix2 (0 : Fin 1) h) = aBias m c (ix1 h) := by
  rw [V_bias]; exact shapeCast_a_1a_apply _ _ 0 h
theorem tau_read (c : Dev nD) (h : Fin 8192) : (V m c main_v22 : S1x8192.Idx → EReal) (ix2 (0 : Fin 1) h) = aTau m c (ix1 h) := by
  rw [V_tau]; exact shapeCast_a_1a_apply _ _ 0 h
theorem act_read (c : Dev nD) (h : Fin 8192) : (V m c main_v23 : S1x8192.Idx → BitVec 32) (ix2 (0 : Fin 1) h) = aAct m c (ix1 h) := by
  rw [V_act]; exact shapeCast_a_1a_apply _ _ 0 h

/-- A nonnegative entry is not wrapped. -/
theorem wrapped_eq (v : IVec SE 32) (n : BitVec 32) (k : Fin 3774873) (hv : 0 ≤ (v (ix1 k)).toInt) :
    wrapped v n (ix1 k) = v (ix1 k) := by
  have h0 : (broadcastInDim S3774873 ![] bcast_S_S3774873 (constantI S_ 32 0#32) : IVec SE 32) (ix1 k) = 0#32 :=
    broadcastInDim_apply _ bcast_S_S3774873 _ (ix1 k) (fun a => a.elim0) (fun a => a.elim0)
  show Scalar.select (IntOp.cmpi .slt (v (ix1 k)) _) _ _ = _
  rw [h0]
  have hne : ¬IntOp.cmpi .slt (v (ix1 k)) 0#32 = 1#1 := by
    rw [IntOp.cmpi_slt]
    have : (0#32 : BitVec 32).toInt = 0 := by decide
    omega
  rw [eq_zero_of_ne_one hne, select_zero]

/-- The index array of the scatter: row `k` is (source, target) of edge `k`, wrapped. -/
abbrev pairs (c : Dev nD) : IVec S3774873x2 32 :=
  concatenate S3774873x2 1 [⟨S3774873x1, broadcastInDim S3774873x1 ![0] bcast_S3774873_S3774873x1_0 (wrapped (aCols m c) 9216#32)⟩,
    ⟨S3774873x1, broadcastInDim S3774873x1 ![0] bcast_S3774873_S3774873x1_0 (wrapped (aRows m c) 8192#32)⟩]
    concatenates_S3774873x1_S3774873x1_S3774873x2_d1

theorem pairs_src (c : Dev nD) (k : Fin 3774873) : pairs m c (ix2 k (0 : Fin 2)) = wrapped (aCols m c) 9216#32 (ix1 k) := by
  refine (concatenate_pair_apply_left _ _ _ concatenates_S3774873x1_S3774873x1_S3774873x2_d1 (ix2 k (0 : Fin 2)) rfl
    (ix2 k (0 : Fin 1)) (fun a => match a with | ⟨0, _⟩ => rfl | ⟨1, _⟩ => rfl)).trans ?_
  exact broadcastInDim_apply _ bcast_S3774873_S3774873x1_0 _ (ix2 k (0 : Fin 1)) (ix1 k) (fun a => match a with
    | ⟨0, _⟩ => by show k.val = if (3774873 : Nat) = 1 then 0 else k.val; rw [if_neg (by decide)])

theorem pairs_tgt (c : Dev nD) (k : Fin 3774873) : pairs m c (ix2 k (1 : Fin 2)) = wrapped (aRows m c) 8192#32 (ix1 k) := by
  refine (concatenate_pair_apply_right _ _ _ concatenates_S3774873x1_S3774873x1_S3774873x2_d1 (ix2 k (1 : Fin 2)) rfl rfl
    (ix2 k (0 : Fin 1)) (fun a ha => match a, ha with | ⟨0, _⟩, _ => rfl | ⟨1, _⟩, ha => absurd rfl ha)
    (by show 0 + 1 = 1; rfl)).trans ?_
  exact broadcastInDim_apply _ bcast_S3774873_S3774873x1_0 _ (ix2 k (0 : Fin 1)) (ix1 k) (fun a => match a with
    | ⟨0, _⟩ => by show k.val = if (3774873 : Nat) = 1 then 0 else k.val; rw [if_neg (by decide)])

/-- Entry `(cc, h)` of the staged `Mt`, with the indices in range: the total weight of the edges from `cc` into `h`. -/
theorem mt_read (c : Dev nD) (hp : PreFacts (aInp m c) (aY m c) (aW m c) (aRows m c) (aCols m c)) (cc : Fin 9216) (h : Fin 8192) :
    (V m c main_v19 : S9216x8192.Idx → EReal) (ix2 cc h)
      = ∑ k ∈ Finset.univ.filter (fun k : Fin 3774873 => colIx (aCols m c) k = cc ∧ (aRows m c (ix1 k)).toInt = (h.val : Int)),
          aW m c (ix1 k) := by
  rw [V_mt, truncf_apply]
  refine (PointScatter.scatterAdd_apply scatter_S9216x8192_S3774873x2_S3774873_n_01_01_1_wf (pairs m c) _ (aW m c) cc h).trans ?_
  have hz0 : (broadcastInDim S9216x8192 ![] bcast_S_S9216x8192 (constant (F := Ideal) S_ .f32 0x00000000#32) : FVec Ideal S9216x8192 .f32)
      (ix2 cc h) = 0 :=
    (broadcastInDim_apply _ bcast_S_S9216x8192 _ (ix2 cc h) (fun a => a.elim0) (fun a => a.elim0)).trans Ideal.ofBits_zero_f32
  rw [hz0, zero_add]
  refine Finset.sum_congr (Finset.filter_congr fun k _ => ?_) fun _ _ => rfl
  rw [pairs_src, pairs_tgt, wrapped_eq _ _ k (hp.cols_rng k).1, wrapped_eq _ _ k (hp.rows_rng k).1, colIx_val hp.cols_rng k]
  constructor
  · rintro ⟨h1, h2⟩; exact ⟨Fin.ext (by exact_mod_cast h1), h2⟩
  · rintro ⟨h1, h2⟩; exact ⟨by rw [h1], h2⟩

end Liquid.Kern

end
-- ==== Proof.SumLaw.lean ====
/-
  Two laws of finite sums over the extended reals.

  `sparse_law`: a weighted sum rearranged by source. For real numbers `a c` and `w k`, a map `g` from edges to
  columns and a property `P` of edges, the sum over the columns `c` of `a c` times the total weight of the edges
  with `g k = c` that have `P` is the sum over the edges with `P` of `w k * a (g k)`: distribute `a c` over the inner
  sum (this is where the entries must be real numbers: multiplication does not distribute over addition at the
  infinities), then sum over the fibres of `g`.
  `sum_blocks`: a sum over 9216 positions is the sum over 6 consecutive blocks of 1536 positions.
-/
import Idealize.ShloMosaic.PureOps.Ideal

noncomputable section

open scoped BigOperators

namespace Liquid

/-- The embedding of the reals commutes with finite sums. -/
theorem coe_sum {ι : Type*} (s : Finset ι) (f : ι → ℝ) : ((∑ i ∈ s, f i : ℝ) : EReal) = ∑ i ∈ s, ((f i : ℝ) : EReal) := by
  classical
  induction s using Finset.induction_on with
  | empty => rw [Finset.sum_empty, Finset.sum_empty, EReal.coe_zero]
  | insert i s hi ih => rw [Finset.sum_insert hi, Finset.sum_insert hi, EReal.coe_add, ih]

/-- The rearrangement over the reals. The edges with `P` are split into the fibres of `g`; on the fibre over `c`
the factor `a (g k)` is the constant `a c`, which is then taken out of the inner sum. -/
theorem sparse_law_real {K C : Type*} [Fintype K] [Fintype C] [DecidableEq C] (a : C → ℝ) (w : K → ℝ) (g : K → C)
    (P : K → Prop) [DecidablePred P] :
    ∑ c, a c * (∑ k ∈ Finset.univ.filter (fun k => g k = c ∧ P k), w k)
      = ∑ k ∈ Finset.univ.filter P, w k * a (g k) := by
  refine Eq.trans ?_ (Finset.sum_fiberwise (Finset.univ.filter P) g (fun k => w k * a (g k)))
  refine Finset.sum_congr rfl fun c _ => ?_
  rw [Finset.mul_sum, Finset.filter_filter]
  refine Finset.sum_congr ?_ fun k hk => ?_
  · ext k
    simp only [Finset.mem_filter, Finset.mem_univ, true_and]
    exact and_comm
  · have hk' : g k = c := (Finset.mem_filter.1 hk).2.2
    rw [hk', mul_comm]

/-- A weighted sum rearranged by source (see the header). -/
theorem sparse_law {K C : Type*} [Fintype K] [Fintype C] [DecidableEq C] (a : C → EReal) (w : K → EReal) (g : K → C)
    (P : K → Prop) [DecidablePred P] (ha : ∀ c, a c ≠ ⊤ ∧ a c ≠ ⊥) (hw : ∀ k, w k ≠ ⊤ ∧ w k ≠ ⊥) :
    ∑ c, a c * (∑ k ∈ Finset.univ.filter (fun k => g k = c ∧ P k), w k)
      = ∑ k ∈ Finset.univ.filter P, w k * a (g k) := by
  -- every entry is a real number, so both families are embeddings of real-valued families
  obtain ⟨a', rfl⟩ : ∃ a' : C → ℝ, a = fun c => ((a' c : ℝ) : EReal) :=
    ⟨fun c => (a c).toReal, funext fun c => (EReal.coe_toReal (ha c).1 (ha c).2).symm⟩
  obtain ⟨w', rfl⟩ : ∃ w' : K → ℝ, w = fun k => ((w' k : ℝ) : EReal) :=
    ⟨fun k => (w k).toReal, funext fun k => (EReal.coe_toReal (hw k).1 (hw k).2).symm⟩
  -- both sides are then embeddings of real sums of real products, and the real identity applies
  simp only [← coe_sum, ← EReal.coe_mul]
  exact congrArg _ (sparse_law_real a' w' g P)

/-- The first `a * b` positions, read as `a` consecutive blocks of `b` positions: block `s` holds the positions
`b * s + j` with `j < b`. By induction on the number of blocks, the last block being split off the end. -/
theorem sum_blocks_range (f : ℕ → EReal) (b a : ℕ) :
    ∑ s ∈ Finset.range a, ∑ j ∈ Finset.range b, f (b * s + j) = ∑ n ∈ Finset.range (a * b), f n := by
  induction a with
  | zero => rw [Finset.sum_range_zero, Nat.zero_mul, Finset.sum_range_zero]
  | succ a ih => rw [Finset.sum_range_succ, ih, Nat.succ_mul, Finset.sum_range_add, Nat.mul_comm b a]

/-- A sum over 9216 positions, block by block: 6 blocks of 1536. -/
theorem sum_blocks (f : ℕ → EReal) :
    ∑ s ∈ Finset.range 6, ∑ j : Fin 1536, f (1536 * s + j.val) = ∑ c : Fin 9216, f c.val := by
  have h := sum_blocks_range f 1536 6
  have e : 6 * 1536 = 9216 := by norm_num
  rw [e] at h
  rw [Fin.sum_univ_eq_sum_range f 9216, ← h]
  exact Finset.sum_congr rfl fun s _ => Fin.sum_univ_eq_sum_range (fun j => f (1536 * s + j)) 1536

end Liquid

end
-- ==== Proof.KAcc.lean ====
/-
  The accumulator over a row of the grid, and what the row's last point stores.

  After point `n` the accumulator holds, at `(b, q)`, the sum of the products of the points `6 (n / 6) … n` of its row
  (reset at the row's first point, one product added at each point). A point's product is the sum over its 1536 staged
  columns of `comb` times `Mt`; the six points of a row cover the 9216 columns block by block, so at the row's last
  point the accumulator is `∑ c, comb b c * Mt c h` with `h = 2048 (n / 6) + q`. With the indices in range `Mt c h` is
  the total weight of the edges from `c` into `h`, and distributing `comb b c` over that sum and summing over the
  sources gives the drive `∑ (edges k into h) w k * comb b (cols k)`: here the entries must be real numbers.
  The row's last point then stores `stepX` of the drive as the new state and `actY` of that as the new output.
-/
import proofs.«415341_j11596411699830_1_alg».proof.Proof.KPieces
import proofs.«415341_j11596411699830_1_alg».proof.Proof.KPay
import proofs.«415341_j11596411699830_1_alg».proof.Proof.KBlocks
import proofs.«415341_j11596411699830_1_alg».proof.Proof.KRead
import proofs.«415341_j11596411699830_1_alg».proof.Proof.SumLaw

noncomputable section

open scoped BigOperators

namespace Liquid.Kern

open Idealize.ShloMosaic Idealize.ShloMosaic.TcCoe Idealize.SL.Sem
open Idealize.ShloMosaic.ValueIdx
open Cert.KernelIdeal Cert.KernelIdeal.Gen Liquid

variable (m : (ℓ : Loc nD τ sig) → Buf (Elt Ideal) ℓ)

/-- The staged blocks at point `t`, by their literal types. -/
abbrev lhsB (c : Dev nD) (t : Fin cfg0.N) : FVec Ideal S16x1536 .bf16 := iblk m c 0 t
abbrev rhsB (c : Dev nD) (t : Fin cfg0.N) : FVec Ideal S1536x2048 .bf16 := iblk m c 1 t
abbrev xB (c : Dev nD) (t : Fin cfg0.N) : FVec Ideal S1x2048 .f32 := iblk m c 2 t
abbrev biasB (c : Dev nD) (t : Fin cfg0.N) : FVec Ideal S1x2048 .f32 := iblk m c 3 t
abbrev tauB (c : Dev nD) (t : Fin cfg0.N) : FVec Ideal S1x2048 .f32 := iblk m c 4 t
abbrev actB (c : Dev nD) (t : Fin cfg0.N) : IVec S1x2048 32 := iblk m c 5 t

/-- The accumulator after point `n`. -/
abbrev scr (c : Dev nD) (n : ℕ) (h : n < cfg0.N) : FVec Ideal S16x2048 .f32 := (outsAt0 m c n h).2.2

/-- The product of point `n` at `(b, q)` (zero past the grid). -/
def term (c : Dev nD) (n : ℕ) (b : Fin 16) (q : Fin 2048) : EReal :=
  if h : n < cfg0.N then ∑ j : Fin 1536, lhsB m c ⟨n, h⟩ (ix2 b j) * rhsB m c ⟨n, h⟩ (ix2 j q) else 0

/-! ## The accumulator point by point -/

theorem scr_A_fun (c : Dev nD) (t : Fin cfg0.N) (h0 : t.val % 6 = 0) :
    scr m c t.val t.isLt = k0_pay2 (F := Ideal) (k0_pay1 (F := Ideal)) (lhsB m c t) (rhsB m c t) := by
  have h1 : ¬t.val % 6 = 5 := by omega
  show (outsAt0 m c t.val t.isLt).2.2 = _
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem scr_B_fun (c : Dev nD) (t : Fin cfg0.N) (h0 : ¬t.val % 6 = 0) (h1 : ¬t.val % 6 = 5) :
    scr m c t.val t.isLt = k0_pay2 (F := Ideal) (scr m c (t.val - 1) (Nat.lt_of_le_of_lt (Nat.sub_le _ _) t.isLt)) (lhsB m c t) (rhsB m c t) := by
  show (outsAt0 m c t.val t.isLt).2.2 = _
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) _

theorem scr_C_fun (c : Dev nD) (t : Fin cfg0.N) (h0 : ¬t.val % 6 = 0) (h1 : t.val % 6 = 5) :
    scr m c t.val t.isLt = k0_pay2 (F := Ideal) (scr m c (t.val - 1) (Nat.lt_of_le_of_lt (Nat.sub_le _ _) t.isLt)) (lhsB m c t) (rhsB m c t) := by
  show (outsAt0 m c t.val t.isLt).2.2 = _
  rw [outsAt0_C m c t h0 h1]
  dsimp only
  exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) _

/-- At a row's first point the accumulator is that point's product … -/
theorem scr_first (c : Dev nD) (t : Fin cfg0.N) (h0 : t.val % 6 = 0) (b : Fin 16) (q : Fin 2048) :
    scr m c t.val t.isLt (ix2 b q) = term m c t.val b q := by
  rw [scr_A_fun m c t h0]
  refine (pay2_apply _ (lhsB m c t) (rhsB m c t) b q).trans ?_
  rw [pay1_apply, zero_add]
  unfold term
  rw [dif_pos t.isLt]

/-- … and at every other point what the point before left plus that point's product. -/
theorem scr_next (c : Dev nD) (t : Fin cfg0.N) (h0 : ¬t.val % 6 = 0) (b : Fin 16) (q : Fin 2048) :
    scr m c t.val t.isLt (ix2 b q) = (scr m c (t.val - 1) (Nat.lt_of_le_of_lt (Nat.sub_le _ _) t.isLt)) (ix2 b q) + term m c t.val b q := by
  have hf : scr m c t.val t.isLt = k0_pay2 (F := Ideal) (scr m c (t.val - 1) (Nat.lt_of_le_of_lt (Nat.sub_le _ _) t.isLt)) (lhsB m c t) (rhsB m c t) := by
    by_cases h1 : t.val % 6 = 5
    · exact scr_C_fun m c t h0 h1
    · exact scr_B_fun m c t h0 h1
  rw [hf]
  refine (pay2_apply _ (lhsB m c t) (rhsB m c t) b q).trans ?_
  unfold term
  rw [dif_pos t.isLt]

/-- The accumulator after point `n`: the sum of the products of its row's points up to `n`. -/
theorem scr_sum (c : Dev nD) : ∀ (n : ℕ) (h : n < cfg0.N) (b : Fin 16) (q : Fin 2048),
    scr m c n h (ix2 b q) = ∑ s ∈ Finset.range (n % 6 + 1), term m c (6 * (n / 6) + s) b q
  | 0, h, b, q => by
    rw [scr_first m c ⟨0, h⟩ rfl b q]
    simp
  | n + 1, h, b, q => by
    by_cases h0 : (n + 1) % 6 = 0
    · rw [scr_first m c ⟨n + 1, h⟩ h0 b q, h0, show (0 : ℕ) + 1 = 1 from rfl, Finset.sum_range_one]
      have e : 6 * ((n + 1) / 6) + 0 = n + 1 := by omega
      rw [e]
    · rw [scr_next m c ⟨n + 1, h⟩ h0 b q]
      show scr m c n _ (ix2 b q) + _ = _
      rw [scr_sum c n (Nat.lt_of_succ_lt h) b q]
      have e1 : (n + 1) % 6 = n % 6 + 1 := by omega
      have e2 : (n + 1) / 6 = n / 6 := by omega
      have e3 : 6 * (n / 6) + (n % 6 + 1) = n + 1 := by omega
      rw [e1, e2, Finset.sum_range_succ _ (n % 6 + 1), e3]

/-! ## A point's product in terms of the arrays -/

/-- Column `n` of `comb` times entry `(n, H)` of `Mt` (zero past the last column). -/
def prodAt (c : Dev nD) (b : Fin 16) (H : Fin 8192) (n : ℕ) : EReal :=
  if h : n < 9216 then comb (aInp m c) (aY m c) b ⟨n, h⟩ * (V m c main_v19 : S9216x8192.Idx → EReal) (ix2 ⟨n, h⟩ H) else 0

theorem term_blocks (c : Dev nD) (t : Fin cfg0.N) (b : Fin 16) (q : Fin 2048) (H : Fin 8192)
    (hH : H.val = 2048 * (t.val / 6) + q.val) :
    term m c t.val b q = ∑ j : Fin 1536, prodAt m c b H (1536 * (t.val % 6) + j.val) := by
  unfold term
  rw [dif_pos t.isLt]
  refine Finset.sum_congr rfl fun j _ => ?_
  have hlt : 1536 * (t.val % 6) + j.val < 9216 := by
    have := Nat.mod_lt t.val (by decide : 0 < 6); have := j.isLt; omega
  unfold prodAt
  rw [dif_pos hlt]
  exact congrArg₂ (fun x y : EReal => x * y)
    ((lhs_blk m c t b j b ⟨_, hlt⟩ rfl rfl).trans (comb_read m c b ⟨_, hlt⟩))
    (rhs_blk m c t j q ⟨_, hlt⟩ H rfl hH)

/-- At a row's last point the accumulator is the drive. -/
theorem scr_last (c : Dev nD) (hp : PreFacts (aInp m c) (aY m c) (aW m c) (aRows m c) (aCols m c)) (t : Fin cfg0.N)
    (h1 : t.val % 6 = 5) (b : Fin 16) (q : Fin 2048) (H : Fin 8192) (hH : H.val = 2048 * (t.val / 6) + q.val) :
    scr m c t.val t.isLt (ix2 b q) = drive (aInp m c) (aY m c) (aW m c) (aRows m c) (aCols m c) b H := by
  have hN : cfg0.N = 24 := N_0
  have step : ∀ s ∈ Finset.range 6,
      term m c (6 * (t.val / 6) + s) b q = ∑ j : Fin 1536, prodAt m c b H (1536 * s + j.val) := by
    intro s hs
    have hs6 := Finset.mem_range.mp hs
    have hlt : 6 * (t.val / 6) + s < cfg0.N := by have := t.isLt; omega
    have e5 : (6 * (t.val / 6) + s) % 6 = s := by omega
    have e6 : (6 * (t.val / 6) + s) / 6 = t.val / 6 := by omega
    have := term_blocks m c ⟨6 * (t.val / 6) + s, hlt⟩ b q H (by show H.val = 2048 * ((6 * (t.val / 6) + s) / 6) + q.val; rw [e6, hH])
    simp only [e5] at this
    exact this
  rw [scr_sum m c t.val t.isLt b q, h1, show (5 : ℕ) + 1 = 6 from rfl, Finset.sum_congr rfl step,
    sum_blocks (prodAt m c b H)]
  have hcc : ∀ cc : Fin 9216, prodAt m c b H cc.val
      = comb (aInp m c) (aY m c) b cc * ∑ k ∈ Finset.univ.filter (fun k : Fin 3774873 =>
          colIx (aCols m c) k = cc ∧ (aRows m c (ix1 k)).toInt = (H.val : Int)), aW m c (ix1 k) := by
    intro cc
    unfold prodAt
    rw [dif_pos cc.isLt]
    exact congrArg (comb (aInp m c) (aY m c) b cc * ·) (mt_read m c hp cc H)
  rw [Finset.sum_congr rfl fun cc _ => hcc cc]
  exact sparse_law (fun cc => comb (aInp m c) (aY m c) b cc) (fun k => aW m c (ix1 k)) (colIx (aCols m c))
    (fun k => (aRows m c (ix1 k)).toInt = (H.val : Int)) (comb_fin hp.inp_fin hp.y_fin b) (fun k => hp.w_fin _)

/-! ## What the row's last point stores -/

theorem outX_fun (c : Dev nD) (t : Fin cfg0.N) (h0 : ¬t.val % 6 = 0) (h1 : t.val % 6 = 5) :
    (outsAt0 m c t.val t.isLt).1 = k0_pay4 (F := Ideal) (k0_pay2 (F := Ideal) (scr m c (t.val - 1) (Nat.lt_of_le_of_lt (Nat.sub_le _ _) t.isLt)) (lhsB m c t) (rhsB m c t))
      (xB m c t) (biasB m c t) (tauB m c t) := by
  rw [outsAt0_C m c t h0 h1]
  dsimp only
  exact outX_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) _

theorem outY_fun (c : Dev nD) (t : Fin cfg0.N) (h0 : ¬t.val % 6 = 0) (h1 : t.val % 6 = 5) :
    (outsAt0 m c t.val t.isLt).2.1 = k0_pay3 (F := Ideal)
      (k0_pay6 (F := Ideal) (k0_pay2 (F := Ideal) (scr m c (t.val - 1) (Nat.lt_of_le_of_lt (Nat.sub_le _ _) t.isLt)) (lhsB m c t) (rhsB m c t)) (xB m c t) (biasB m c t) (tauB m c t) (actB m c t))
      (k0_pay7 (F := Ideal) (k0_pay2 (F := Ideal) (scr m c (t.val - 1) (Nat.lt_of_le_of_lt (Nat.sub_le _ _) t.isLt)) (lhsB m c t) (rhsB m c t)) (xB m c t) (biasB m c t) (tauB m c t) (actB m c t)) := by
  rw [outsAt0_C m c t h0 h1]
  dsimp only
  exact outY_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) _

/-- The new state stored at a row's last point, at `(b, q)`: the specification's at unit `H = 2048 (t / 6) + q`. -/
theorem outX_val (c : Dev nD) (hp : PreFacts (aInp m c) (aY m c) (aW m c) (aRows m c) (aCols m c)) (t : Fin cfg0.N)
    (h1 : t.val % 6 = 5) (b : Fin 16) (q : Fin 2048) (H : Fin 8192) (hH : H.val = 2048 * (t.val / 6) + q.val) :
    (outsAt0 m c t.val t.isLt).1 (ix2 b q) = newX (aInp m c) (aX m c) (aY m c) (aTau m c) (aBias m c) (aW m c) (aRows m c) (aCols m c) b H := by
  have h0 : ¬t.val % 6 = 0 := by omega
  rw [outX_fun m c t h0 h1, ← scr_C_fun m c t h0 h1]
  refine (pay4_apply (scr m c t.val t.isLt) (xB m c t) (biasB m c t) (tauB m c t) b q).trans ?_
  rw [scr_last m c hp t h1 b q H hH,
    show xB m c t (ix2 (0 : Fin 1) q) = aX m c (ix1 H) from (x_blk m c t 0 q 0 H rfl hH).trans (x_read m c H),
    show biasB m c t (ix2 (0 : Fin 1) q) = aBias m c (ix1 H) from (bias_blk m c t 0 q 0 H rfl hH).trans (bias_read m c H),
    show tauB m c t (ix2 (0 : Fin 1) q) = aTau m c (ix1 H) from (tau_blk m c t 0 q 0 H rfl hH).trans (tau_read m c H)]
  rfl

/-- The new output stored there. -/
theorem outY_val (c : Dev nD) (hp : PreFacts (aInp m c) (aY m c) (aW m c) (aRows m c) (aCols m c)) (t : Fin cfg0.N)
    (h1 : t.val % 6 = 5) (b : Fin 16) (q : Fin 2048) (H : Fin 8192) (hH : H.val = 2048 * (t.val / 6) + q.val) :
    (outsAt0 m c t.val t.isLt).2.1 (ix2 b q) = actY (aAct m c (ix1 H)) (newX (aInp m c) (aX m c) (aY m c) (aTau m c) (aBias m c) (aW m c) (aRows m c) (aCols m c) b H) := by
  have h0 : ¬t.val % 6 = 0 := by omega
  have hx := outX_val m c hp t h1 b q H hH
  rw [outX_fun m c t h0 h1] at hx
  rw [outY_fun m c t h0 h1]
  refine (pay3_apply _ (xB m c t) (biasB m c t) (tauB m c t) (actB m c t) b q).trans ?_
  rw [hx, show actB m c t (ix2 (0 : Fin 1) q) = aAct m c (ix1 H) from (act_blk m c t 0 q 0 H rfl hH).trans (act_read m c H)]

end Liquid.Kern

end
-- ==== Proof.KFinal.lean ====
/-
  The kernel's results.

  The new-state array and the array of new outputs are written back only at the last point of each row of the grid,
  each time a block of 2048 columns; the four blocks tile the 8192 columns, and what each write-back stores is that
  block of the specification's array. So both arrays end holding the specification's, and the operations after the
  launch (a slice of columns, the sum of absolute values times a constant) are applied to the array of new outputs.
-/
import proofs.«415341_j11596411699830_1_alg».proof.Proof.KAcc
import Idealize.ShloMosaic.Lib.StableHlo.Run

noncomputable section

open scoped BigOperators

namespace Liquid.Kern

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Liquid

variable (m : (ℓ : Loc nD τ sig) → Buf (Elt Ideal) ℓ) (ρ : Dev nD → PrngReg)

/-- The specification's arrays of the arguments on core `c`. -/
abbrev specX (c : Dev nD) : SBH.Idx → EReal := newXArr (aInp m c) (aX m c) (aY m c) (aTau m c) (aBias m c) (aW m c) (aRows m c) (aCols m c)
abbrev specY (c : Dev nD) : SBH.Idx → EReal := newYArr (aInp m c) (aX m c) (aY m c) (aTau m c) (aBias m c) (aW m c) (aRows m c) (aCols m c) (aAct m c)

/-! ## What a write-back stores -/

theorem flushX_pt (c : Dev nD) (hp : PreFacts (aInp m c) (aY m c) (aW m c) (aRows m c) (aCols m c)) (t : Fin cfg0.N)
    (h1 : t.val % 6 = 5) (y : S16x2048.Idx) :
    (outsAt0 m c t.val t.isLt).1 y
      = (((cfg0.win 6).blk t).view.read (Elt Ideal) (specX m c) : S16x2048.Idx → EReal) y := by
  obtain ⟨b, q, rfl⟩ : ∃ (b : Fin 16) (q : Fin 2048), y = ix2 b q := ⟨y 0, y 1, eq_ix2 y⟩
  have hN : cfg0.N = 24 := N_0
  have hlt : 2048 * (t.val / 6) + q.val < 8192 := by have := t.isLt; have := q.isLt; omega
  rw [xout_blk_of t (specX m c) b q ⟨_, hlt⟩ rfl]
  exact outX_val m c hp t h1 b q ⟨_, hlt⟩ rfl

theorem flushY_pt (c : Dev nD) (hp : PreFacts (aInp m c) (aY m c) (aW m c) (aRows m c) (aCols m c)) (t : Fin cfg0.N)
    (h1 : t.val % 6 = 5) (y : S16x2048.Idx) :
    (outsAt0 m c t.val t.isLt).2.1 y
      = (((cfg0.win 7).blk t).view.read (Elt Ideal) (specY m c) : S16x2048.Idx → EReal) y := by
  obtain ⟨b, q, rfl⟩ : ∃ (b : Fin 16) (q : Fin 2048), y = ix2 b q := ⟨y 0, y 1, eq_ix2 y⟩
  have hN : cfg0.N = 24 := N_0
  have hlt : 2048 * (t.val / 6) + q.val < 8192 := by have := t.isLt; have := q.isLt; omega
  rw [yout_blk_of t (specY m c) b q ⟨_, hlt⟩ rfl]
  exact outY_val m c hp t h1 b q ⟨_, hlt⟩ rfl

theorem flushedX_eq (c : Dev nD) (hp : PreFacts (aInp m c) (aY m c) (aW m c) (aRows m c) (aCols m c)) (t : Fin cfg0.N)
    (hf : (cfg0.win 6).flush t = true) :
    (dats m 0 c).flushed 6 t = ((cfg0.win 6).blk t).view.read (Elt Ideal) (specX m c) := by
  have h1 : t.val % 6 = 5 := (flush0_6 t).mp hf
  show (cfg0.win 6).cut (grid0.coords t) ((dats m 0 c).after 6 t) = _
  rw [after0_6]
  exact funext (flushX_pt m c hp t h1)

theorem flushedY_eq (c : Dev nD) (hp : PreFacts (aInp m c) (aY m c) (aW m c) (aRows m c) (aCols m c)) (t : Fin cfg0.N)
    (hf : (cfg0.win 7).flush t = true) :
    (dats m 0 c).flushed 7 t = ((cfg0.win 7).blk t).view.read (Elt Ideal) (specY m c) := by
  have h1 : t.val % 6 = 5 := (flush0_7 t).mp hf
  show (cfg0.win 7).cut (grid0.coords t) ((dats m 0 c).after 7 t) = _
  rw [after0_7]
  exact funext (flushY_pt m c hp t h1)

/-! ## The write-backs cover the arrays -/

theorem coverX (i : S16x8192.Idx) :
    ∃ t : Fin cfg0.N, (cfg0.win 6).flush t = true ∧ i ∈ ((cfg0.win 6).blk t).view.set := by
  have hN : cfg0.N = 24 := N_0
  have hi0 : (i 0).val < 16 := (i 0).isLt
  have hi1 : (i 1).val < 8192 := (i 1).isLt
  have e : (6 * ((i 1).val / 2048) + 5) / 6 = (i 1).val / 2048 := by omega
  refine ⟨⟨6 * ((i 1).val / 2048) + 5, by omega⟩, (flush0_6 _).mpr (by show (6 * ((i 1).val / 2048) + 5) % 6 = 5; omega), ?_⟩
  rw [mem_blk6]
  intro a
  match a with
  | ⟨0, _⟩ =>
    show win0_6.index _ (0 : Fin 2) * 16 ≤ (i 0).val ∧ (i 0).val < win0_6.index _ (0 : Fin 2) * 16 + 16
    rw [idx_w6_0]; omega
  | ⟨1, _⟩ =>
    show win0_6.index _ (1 : Fin 2) * 2048 ≤ (i 1).val ∧ (i 1).val < win0_6.index _ (1 : Fin 2) * 2048 + 2048
    rw [idx_w6_1]
    show (6 * ((i 1).val / 2048) + 5) / 6 * 2048 ≤ (i 1).val ∧ (i 1).val < (6 * ((i 1).val / 2048) + 5) / 6 * 2048 + 2048
    rw [e]; omega

theorem coverY (i : S16x8192.Idx) :
    ∃ t : Fin cfg0.N, (cfg0.win 7).flush t = true ∧ i ∈ ((cfg0.win 7).blk t).view.set := by
  have hN : cfg0.N = 24 := N_0
  have hi0 : (i 0).val < 16 := (i 0).isLt
  have hi1 : (i 1).val < 8192 := (i 1).isLt
  have e : (6 * ((i 1).val / 2048) + 5) / 6 = (i 1).val / 2048 := by omega
  refine ⟨⟨6 * ((i 1).val / 2048) + 5, by omega⟩, (flush0_7 _).mpr (by show (6 * ((i 1).val / 2048) + 5) % 6 = 5; omega), ?_⟩
  rw [mem_blk7]
  intro a
  match a with
  | ⟨0, _⟩ =>
    show win0_7.index _ (0 : Fin 2) * 16 ≤ (i 0).val ∧ (i 0).val < win0_7.index _ (0 : Fin 2) * 16 + 16
    rw [idx_w7_0]; omega
  | ⟨1, _⟩ =>
    show win0_7.index _ (1 : Fin 2) * 2048 ≤ (i 1).val ∧ (i 1).val < win0_7.index _ (1 : Fin 2) * 2048 + 2048
    rw [idx_w7_1]
    show (6 * ((i 1).val / 2048) + 5) / 6 * 2048 ≤ (i 1).val ∧ (i 1).val < (6 * ((i 1).val / 2048) + 5) / 6 * 2048 + 2048
    rw [e]; omega

/-! ## The two result arrays -/

theorem finalX (c : Dev nD) (hp : PreFacts (aInp m c) (aY m c) (aW m c) (aRows m c) (aCols m c)) :
    (dats m 0 c).arrAt 6 cfg0.N = specX m c :=
  (dats m 0 c).arrAt_eq_of_cover 6 (specX m c) (fun t hf => flushedX_eq m c hp t hf) coverX

theorem finalY (c : Dev nD) (hp : PreFacts (aInp m c) (aY m c) (aW m c) (aRows m c) (aCols m c)) :
    (dats m 0 c).arrAt 7 cfg0.N = specY m c :=
  (dats m 0 c).arrAt_eq_of_cover 7 (specY m c) (fun t hf => flushedY_eq m c hp t hf) coverY

/-! ## The operations after the launch -/

/-- After the write-backs the array of new outputs, as the later operations find it, is the specification's. -/
theorem arrY_after (c : Dev nD) (hp : PreFacts (aInp m c) (aY m c) (aW m c) (aRows m c) (aCols m c)) :
    Pipeline.withArrays (cfgs 0).spec c (V0 m c) (fun w => (dats m 0 c).arrAt w (cfgs 0).N) (Proc.devRef .tc main_v24_1)
      = specY m c :=
  (Pipeline.withArrays_arr spec0 launch0.win.arr_inj c _ _ 7).trans (finalY m c hp)

/-- The first result: columns 7934 … 8189 of the new outputs. -/
theorem tail_slice (c : Dev nD) (hp : PreFacts (aInp m c) (aY m c) (aW m c) (aRows m c) (aCols m c)) :
    Pipeline.afterTail₀ cfgs (dats m) 0 (V0 m) [hostOps1] c main_v25
      = outSlice slices_S16x8192_S16x256_0_7934 (specY m c) := by
  unfold Pipeline.afterTail₀
  show StableHlo.after hostOps1 _ (Proc.devRef .tc main_v25) = _
  after_results
  exact congrArg (fun v => extractStridedSlice S16x256 ![0, 7934] v slices_S16x8192_S16x256_0_7934) (arrY_after m c hp)

/-- The third result: the sum of the absolute values of the new outputs, times the constant. -/
theorem tail_energy (c : Dev nD) (hp : PreFacts (aInp m c) (aY m c) (aW m c) (aRows m c) (aCols m c)) :
    Pipeline.afterTail₀ cfgs (dats m) 0 (V0 m) [hostOps1] c main_v28
      = energy reducesTo_S16x8192_S_d0_1 h_S_ (specY m c) := by
  unfold Pipeline.afterTail₀
  show StableHlo.after hostOps1 _ (Proc.devRef .tc main_v28) = _
  after_results
  exact congrArg (fun v => energy reducesTo_S16x8192_S_d0_1 h_S_ v) (arrY_after m c hp)

/-! ## The run -/

/-- Every weakly fair execution of the kernel's program terminates with the three results at the specification's
    values of the arguments, and the arguments unchanged. -/
theorem run (hp : ∀ c : Dev nD, PreFacts (aInp m c) (aY m c) (aW m c) (aRows m c) (aCols m c)) :
    θ_run defs (onTc (τ := τ) (main (F := Ideal))) ⟨m, fun _ => 0, ρ⟩ (fun r => ∀ c : Dev nD,
      r.2.mem ((c.tc : Thread nD τ).loc main_v25) = outSlice slices_S16x8192_S16x256_0_7934 (specY m c)
      ∧ r.2.mem ((c.tc : Thread nD τ).loc main_v24_0) = specX m c
      ∧ r.2.mem ((c.tc : Thread nD τ).loc main_v28) = energy reducesTo_S16x8192_S_d0_1 h_S_ (specY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      ((h c).2 main_v25 (Pipeline.mem_restRefs_of main_v25 (by decide) (by decide))).trans (tail_slice m c (hp c)),
      ((h c).1 6).trans (finalX m c (hp c)),
      ((h c).2 main_v28 (Pipeline.mem_restRefs_of main_v28 (by decide) (by decide))).trans (tail_energy m c (hp c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Liquid.Kern

end
-- ==== Proof.lean ====
/-
  One Euler step of a sparsely connected leaky network: the kernel and the reference compute the same three results.

  Both programs form `comb = [inputs | y]`. The reference gathers, for every edge `k`, the column `cols k` of `comb`,
  multiplies by the edge's weight and adds the product into unit `rows k`: the drive of unit `h` in batch row `b` is
  `∑ (edges k with rows k = h) w k * comb b (cols k)`. The kernel first adds the weights into a dense matrix
  `Mt (c, h) = ∑ (edges k with cols k = c and rows k = h) w k` and then multiplies, block by block over a grid whose rows
  accumulate 6 blocks of 1536 columns: `∑ c, comb b c * Mt (c, h)`. The two agree because `comb b c` distributes over
  the inner sum and the double sum is the sum over the edges grouped by source; distributivity needs the entries to be
  real numbers, which is what the precondition's finiteness of the inputs, of `y` and of the weights gives.
  The precondition also puts every edge's source and target in range: out of range the two programs treat an edge
  differently (the dense matrix drops an edge either of whose indices is out of range and wraps a negative target,
  while the gather clamps the source and the accumulation drops a negative target).
  From the drive on, both programs apply the same state update `x + ((-x + drive + bias) / tau) * dt` and the same
  activation (tanh, the logistic function `1 / (1 + exp (-x))` or the positive part, selected by three 0/1 masks), and
  the same final operations: a slice of columns of the new outputs, the new state, and the sum of the absolute values
  of the new outputs times a constant. The format changes to the 16-bit float are the identity over the extended reals.
  The kernel's idealization rewrote nothing, so it is the kernel's own text read over the extended reals.
-/
import proofs.«415341_j11596411699830_1_alg».proof.Defs
import proofs.«415341_j11596411699830_1_alg».proof.Proof.Gen.Kernel
import proofs.«415341_j11596411699830_1_alg».proof.Proof.Gen.Kernel.Skeleton
import proofs.«415341_j11596411699830_1_alg».proof.Proof.Gen.Kernel.Launch
import proofs.«415341_j11596411699830_1_alg».proof.Proof.Gen.Kernel.Points
import proofs.«415341_j11596411699830_1_alg».proof.Proof.Gen.Kernel.Frame
import proofs.«415341_j11596411699830_1_alg».proof.Proof.Gen.KernelIdeal
import proofs.«415341_j11596411699830_1_alg».proof.Proof.Gen.KernelIdeal.Skeleton
import proofs.«415341_j11596411699830_1_alg».proof.Proof.Gen.KernelIdeal.Launch
import proofs.«415341_j11596411699830_1_alg».proof.Proof.Gen.KernelIdeal.Points
import proofs.«415341_j11596411699830_1_alg».proof.Proof.Gen.KernelIdeal.Frame
import proofs.«415341_j11596411699830_1_alg».proof.Proof.Gen.ReferenceIdeal
import proofs.«415341_j11596411699830_1_alg».proof.Proof.Gen.ReferenceIdeal.Run
import proofs.«415341_j11596411699830_1_alg».proof.Proof.Gen.ReferenceIdeal.Read
import proofs.«415341_j11596411699830_1_alg».proof.Proof.Gen.Pre_finite_inputs
import proofs.«415341_j11596411699830_1_alg».proof.Proof.Pre
import proofs.«415341_j11596411699830_1_alg».proof.Proof.RefValue
import proofs.«415341_j11596411699830_1_alg».proof.Proof.KFinal
import Idealize.ShloMosaic.Adequacy
import Idealize.ShloMosaic.Init

noncomputable section

namespace Cert.Proof

open Idealize.ShloMosaic Idealize.ShloMosaic.TcCoe Idealize.SL.Sem
open Liquid

/-- The kernel's program terminates without a fault and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run states the results and the arguments; drop the results. -/
theorem frame_ri : Cert.frame_ReferenceIdeal := fun m ρ _ =>
  (θ_run Cert.ReferenceIdeal.defs _ _).mono (fun _ h c => (h c).2.2.2) (Cert.ReferenceIdeal.Value.run (F := Ideal) m ρ)

/-- Run from memories that agree on the arguments, the two programs end with the same three results: the
    specification's slice of new outputs, new state, and scaled sum of absolute values, of the arguments. -/
theorem algebraic : Cert.algebraic_KernelIdeal_ReferenceIdeal := by
  intro m ρ m' ρ' hpre hagree
  have hp : ∀ c, PreFacts (Kern.aInp m c) (Kern.aY m c) (Kern.aW m c) (Kern.aRows m c) (Kern.aCols m c) :=
    fun c => preFacts_of_pre _ _ _ _ _ _ _ _ _ (hpre c)
  refine ⟨_, _, _, Kern.run m ρ hp, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v61_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact congrArg (fun v => outSlice _ v) (Ref.newY_eq _ _ _ _ _ _ _ _ _ (hp c))
  · refine (h c).2.1.trans ((Cert.ReferenceIdeal.Read.val_main_v32_eq _ _ _ _ _ _ _ _).trans ?_)
    rw [(hagree c).1, (hagree c).2.1, (hagree c).2.2.1, (hagree c).2.2.2.1, (hagree c).2.2.2.2.1, (hagree c).2.2.2.2.2.1, (hagree c).2.2.2.2.2.2.1, (hagree c).2.2.2.2.2.2.2.1]
    exact Ref.newX_eq _ _ _ _ _ _ _ _ (hp c)
  · rw [(h c).2.2.1, Cert.ReferenceIdeal.Read.val_main_v64_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact congrArg (fun v => energy _ _ v) (Ref.newY_eq _ _ _ _ _ _ _ _ _ (hp c))

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
